-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x1 : Shape := ⟨2, ![800000, 1]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x1 : S_.BroadcastsInDim S800000x1 (![] : Fin 0 → Fin S800000x1.rank)
  reducesTo_S800000x1_S_d0_1 : S800000x1.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : FVec F S800000x1 .f32) (main_arg2 : IVec S800000 32) (main_arg3 : IVec S800000 32) (main_arg4 : FVec F S128x128 .f32) (main_arg5 : FVec F S128 .f32) (main_arg6 : FVec F S128x128 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x1 .f32 := Host.absf main_arg1
  let main_cst_0 : FVec F S_ .f32 := constant S_ .f32 0x7F800000#32
  let main_v5 : FVec F S800000x1 .f32 := broadcastInDim S800000x1 ![] bcast_S_S800000x1 main_cst_0
  let main_v6 : IVec S800000x1 1 := cmpf .olt main_v4 main_v5
  let main_c_1 : IVec S_ 1 := constantI S_ 1 1#1
  let main_v7 : IVec S_ 1 := (fun x v => Host.reduce IntOp.andi x v reducesTo_S800000x1_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_v13 main_v16
-- ==== Kernel.lean ====
abbrev S50000x128 : Shape := ⟨2, ![50000, 128]⟩
abbrev S800000x1 : Shape := ⟨2, ![800000, 1]⟩
abbrev S800000 : Shape := ⟨1, ![800000]⟩
abbrev S128x128 : Shape := ⟨2, ![128, 128]⟩
abbrev S128 : Shape := ⟨1, ![128]⟩
abbrev S1x128 : Shape := ⟨2, ![1, 128]⟩
abbrev S5000x128 : Shape := ⟨2, ![5000, 128]⟩
abbrev S_ : Shape := ⟨0, ![]⟩
abbrev S50000 : Shape := ⟨1, ![50000]⟩
abbrev S800000x128 : Shape := ⟨2, ![800000, 128]⟩
abbrev S16000x1 : Shape := ⟨2, ![16000, 1]⟩
abbrev S16000x128 : Shape := ⟨2, ![16000, 128]⟩
abbrev S50000x1 : Shape := ⟨2, ![50000, 1]⟩
abbrev S5000x1 : Shape := ⟨2, ![5000, 1]⟩

abbrev nBuf : Space → Nat
  | .hbm => 49
  | .vmem => 26
  | .smem => 0
  | _ => 0

abbrev bufTy : (tb : Table) → Fin (tcTables nBuf tb) → BufTy
  | .hbm, ⟨0, _⟩ => ⟨S50000x128, .f32⟩
  | .hbm, ⟨1, _⟩ => ⟨S800000x1, .f32⟩
  | .hbm, ⟨2, _⟩ => ⟨S800000, .i32⟩
  | .hbm, ⟨3, _⟩ => ⟨S800000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S1x128, .f32⟩
  | .hbm, ⟨9, _⟩ => ⟨S1x128, .f32⟩
  | .hbm, ⟨10, _⟩ => ⟨S50000x128, .f32⟩
  | .hbm, ⟨11, _⟩ => ⟨S50000x128, .f32⟩
  | .hbm, ⟨12, _⟩ => ⟨S800000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000, .f32⟩
  | .hbm, ⟨26, _⟩ => ⟨S800000x1, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x128, .f32⟩
  | .hbm, ⟨36, _⟩ => ⟨S800000x128, .f32⟩
  | .hbm, ⟨37, _⟩ => ⟨S_, .f32⟩
  | .hbm, ⟨38, _⟩ => ⟨S50000x128, .f32⟩
  | .hbm, ⟨39, _⟩ => ⟨S800000x1, .i32⟩
  | .hbm, ⟨40, _⟩ => ⟨S50000x128, .f32⟩
  | .hbm, ⟨41, _⟩ => ⟨S_, .f32⟩
  | .hbm, ⟨42, _⟩ => ⟨S800000, .f32⟩
  | .hbm, ⟨43, _⟩ => ⟨S_, .f32⟩
  | .hbm, ⟨44, _⟩ => ⟨S50000, .f32⟩
  | .hbm, ⟨45, _⟩ => ⟨S800000x1, .i32⟩
  | .hbm, ⟨46, _⟩ => ⟨S50000, .f32⟩
  | .hbm, ⟨47, _⟩ => ⟨S50000x1, .f32⟩
  | .hbm, ⟨48, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S16000x1, .f32⟩
  | .local _ .vmem, ⟨11, _⟩ => ⟨S16000x1, .f32⟩
  | .local _ .vmem, ⟨12, _⟩ => ⟨S16000x1, .f32⟩
  | .local _ .vmem, ⟨13, _⟩ => ⟨S16000x1, .f32⟩
  | .local _ .vmem, ⟨14, _⟩ => ⟨S16000x128, .f32⟩
  | .local _ .vmem, ⟨15, _⟩ => ⟨S16000x128, .f32⟩
  | .local _ .vmem, ⟨16, _⟩ => ⟨S16000x128, .f32⟩
  | .local _ .vmem, ⟨17, _⟩ => ⟨S16000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x1, .f32⟩
  | .local _ .vmem, ⟨23, _⟩ => ⟨S5000x1, .f32⟩
  | .local _ .vmem, ⟨24, _⟩ => ⟨S5000x128, .f32⟩
  | .local _ .vmem, ⟨25, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_v7 : Ref sig .tc := ⟨.hbm, 18, rfl⟩
abbrev main_v8 : Ref sig .tc := ⟨.hbm, 19, rfl⟩
abbrev main_c_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_1 : Ref sig .tc := ⟨.hbm, 27, rfl⟩
abbrev main_v15 : Ref sig .tc := ⟨.hbm, 28, rfl⟩
abbrev main_v16 : Ref sig .tc := ⟨.hbm, 29, rfl⟩
abbrev main_c_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16000x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S16000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S16000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S800000x1_S800000 : S800000x1.ShapeCasts S800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  inb_S16000x1_S16000x1_0_0 : ∀ a, (![0, 0] : Fin 2 → Nat) a + S16000x1.size a ≤ S16000x1.size a
  h_S16000x1 : 0 < S16000x1.numel
  shapeCasts_S16000x1_S16000x1 : S16000x1.ShapeCasts S16000x1
  inb_S16000x128_S16000x128_0_0 : ∀ a, (![0, 0] : Fin 2 → Nat) a + S16000x128.size a ≤ S16000x128.size a
  h_S16000x128 : 0 < S16000x128.numel
  shapeCasts_S16000x128_S16000x128 : S16000x128.ShapeCasts S16000x128
  broadcasts_S16000x1_S16000x128 : S16000x1.Broadcasts S16000x128
  bcast_S_S50000x128 : S_.BroadcastsInDim S50000x128 (![] : Fin 0 → Fin S50000x128.rank)
  bcast_S50000_S50000x1_0 : S50000.BroadcastsInDim S50000x1 (![0] : Fin 1 → Fin S50000x1.rank)
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  shapeCasts_S5000x128_S5000x128 : S5000x128.ShapeCasts S5000x128
  broadcasts_S5000x1_S5000x128 : S5000x1.Broadcasts S5000x128
  dot_S5000x128_S128x128_S5000x128_1_0_0_1_n_n_wf : DotDims.WF S5000x128 S128x128 S5000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16000x1.size a ≤ S800000x1.size a
  hwx1_0 : ∀ i : grid1.Coords, EltTy.bits .f32 = 32 ∨ (Rect.block (s := S800000x1) S16000x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16000x1.size a ≤ S800000x1.size a
  hwx1_1 : ∀ i : grid1.Coords, EltTy.bits .f32 = 32 ∨ (Rect.block (s := S800000x1) S16000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16000x128.size a ≤ S800000x128.size a
  hwx1_2 : ∀ i : grid1.Coords, EltTy.bits .f32 = 32 ∨ (Rect.block (s := S800000x128) S16000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S16000x128.size a ≤ S800000x128.size a
  hwx1_3 : ∀ i : grid1.Coords, EltTy.bits .f32 = 32 ∨ (Rect.block (s := S800000x128) S16000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2_0) S5000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_1) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg1) S16000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S16000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S16000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v22) S16000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v2_1) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v30) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v31) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000x1 : Shape := ⟨2, ![800000, 1]⟩
abbrev S800000 : Shape := ⟨1, ![800000]⟩
abbrev S128x128 : Shape := ⟨2, ![128, 128]⟩
abbrev S128 : Shape := ⟨1, ![128]⟩
abbrev S1x128 : Shape := ⟨2, ![1, 128]⟩
abbrev S_ : Shape := ⟨0, ![]⟩
abbrev S50000 : Shape := ⟨1, ![50000]⟩
abbrev S800000x128 : Shape := ⟨2, ![800000, 128]⟩
abbrev S50000x1 : Shape := ⟨2, ![50000, 1]⟩

abbrev nBuf : Space → Nat
  | .hbm => 64
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000x1, .f32⟩
  | .hbm, ⟨2, _⟩ => ⟨S800000, .i32⟩
  | .hbm, ⟨3, _⟩ => ⟨S800000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S50000x128, .f32⟩
  | .hbm, ⟨10, _⟩ => ⟨S1x128, .f32⟩
  | .hbm, ⟨11, _⟩ => ⟨S50000x128, .f32⟩
  | .hbm, ⟨12, _⟩ => ⟨S50000x128, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000, .f32⟩
  | .hbm, ⟨27, _⟩ => ⟨S800000, .f32⟩
  | .hbm, ⟨28, _⟩ => ⟨S800000, .f32⟩
  | .hbm, ⟨29, _⟩ => ⟨S800000, .f32⟩
  | .hbm, ⟨30, _⟩ => ⟨S800000x1, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x128, .f32⟩
  | .hbm, ⟨40, _⟩ => ⟨S800000x128, .f32⟩
  | .hbm, ⟨41, _⟩ => ⟨S800000x128, .f32⟩
  | .hbm, ⟨42, _⟩ => ⟨S_, .f32⟩
  | .hbm, ⟨43, _⟩ => ⟨S50000x128, .f32⟩
  | .hbm, ⟨44, _⟩ => ⟨S800000x1, .i32⟩
  | .hbm, ⟨45, _⟩ => ⟨S50000x128, .f32⟩
  | .hbm, ⟨46, _⟩ => ⟨S_, .f32⟩
  | .hbm, ⟨47, _⟩ => ⟨S800000, .f32⟩
  | .hbm, ⟨48, _⟩ => ⟨S_, .f32⟩
  | .hbm, ⟨49, _⟩ => ⟨S50000, .f32⟩
  | .hbm, ⟨50, _⟩ => ⟨S800000x1, .i32⟩
  | .hbm, ⟨51, _⟩ => ⟨S50000, .f32⟩
  | .hbm, ⟨52, _⟩ => ⟨S_, .f32⟩
  | .hbm, ⟨53, _⟩ => ⟨S50000, .f32⟩
  | .hbm, ⟨54, _⟩ => ⟨S50000, .f32⟩
  | .hbm, ⟨55, _⟩ => ⟨S50000x1, .f32⟩
  | .hbm, ⟨56, _⟩ => ⟨S50000x128, .f32⟩
  | .hbm, ⟨57, _⟩ => ⟨S50000x128, .f32⟩
  | .hbm, ⟨58, _⟩ => ⟨S128x128, .f32⟩
  | .hbm, ⟨59, _⟩ => ⟨S50000x128, .f32⟩
  | .hbm, ⟨60, _⟩ => ⟨S1x128, .f32⟩
  | .hbm, ⟨61, _⟩ => ⟨S50000x128, .f32⟩
  | .hbm, ⟨62, _⟩ => ⟨S50000x128, .f32⟩
  | .hbm, ⟨63, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_v9 : Ref sig .tc := ⟨.hbm, 19, rfl⟩
abbrev main_v10 : Ref sig .tc := ⟨.hbm, 20, rfl⟩
abbrev main_c_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_1 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S800000x1_S800000 : S800000x1.ShapeCasts S800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  dot_S50000x128_S128x128_S50000x128_1_0_0_1_n_n_wf : DotDims.WF S50000x128 S128x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.LibRowOps.lean ====
/-
  Dense layers and row concatenations read one row at a time, at the ideal values.

  A network of dense layers acts on each row of a row-major array by itself.  This file fixes that row-level
  vocabulary — `dense` (a row times a weight matrix, plus a bias), `relu`, `cat2` / `cat3` / `cat4` (rows
  laid end to end) — and reads the array-level operations of both spellings at an index `(n, h)`:
  a kernel's `tpu.matmul` of narrowed operands into a zero accumulator plus a bias cast to one row and
  broadcast down the rows; the host's `dot_general` plus a bias broadcast in two steps; the positive part
  against a zero splat; a concatenation along the columns; the host's minimum over a middle axis of extent four; and the host's
  expansion of the logistic function.
  Everything is generic in the extents.
-/
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

open scoped BigOperators

namespace RowOps

open Idealize.ShloMosaic Idealize.ShloMosaic.ValueIdx

/-! ## The row-level vocabulary -/

/-- A dense layer on one row: the row times the weight matrix, plus the bias. -/
def dense {K H : ℕ} (W : (⟨2, ![K, H]⟩ : Shape).Idx → EReal) (b : (⟨1, ![H]⟩ : Shape).Idx → EReal)
    (x : Fin K → EReal) : Fin H → EReal :=
  fun h => (∑ k : Fin K, x k * W (ix2 k h)) + b (ix1 h)

/-- The positive part, against the zero both programs spell as the all-zero word. -/
def relu {H : ℕ} (x : Fin H → EReal) : Fin H → EReal :=
  fun h => max (x h) (Ideal.ofBits .f32 0x00000000#32)

/-- Two rows laid end to end (a position past both reads zero; none is ever read). -/
def cat2 {A B : ℕ} (C : ℕ) (x : Fin A → EReal) (y : Fin B → EReal) : Fin C → EReal :=
  fun j => if h : j.val < A then x ⟨j.val, h⟩ else if h2 : j.val - A < B then y ⟨j.val - A, h2⟩ else 0

/-- Three rows laid end to end. -/
def cat3 {A B D : ℕ} (C : ℕ) (x : Fin A → EReal) (y : Fin B → EReal) (z : Fin D → EReal) : Fin C → EReal :=
  fun j => if h : j.val < A then x ⟨j.val, h⟩ else if h2 : j.val - A < B then y ⟨j.val - A, h2⟩
    else if h3 : j.val - A - B < D then z ⟨j.val - A - B, h3⟩ else 0

/-- Four rows laid end to end. -/
def cat4 {A B D E : ℕ} (C : ℕ) (x : Fin A → EReal) (y : Fin B → EReal) (z : Fin D → EReal) (w : Fin E → EReal) :
    Fin C → EReal :=
  fun j => if h : j.val < A then x ⟨j.val, h⟩ else if h2 : j.val - A < B then y ⟨j.val - A, h2⟩
    else if h3 : j.val - A - B < D then z ⟨j.val - A - B, h3⟩
    else if h4 : j.val - A - B - D < E then w ⟨j.val - A - B - D, h4⟩ else 0

/-! ## A plain matrix product read at an index -/

section Plain
variable {M K N : ℕ}

theorem plain_lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem plain_lhs1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction's sum, re-indexed by the one contracted coordinate. -/
theorem plain_sum {φ₁ φ₂ : FTy} (l : FVec Ideal ⟨2, ![M, K]⟩ φ₁) (r : FVec Ideal ⟨2, ![K, N]⟩ φ₂) (p : Fin M) (q : Fin N) :
    (∑ k : (DotDims.plain M K N).contr.Idx, l ((DotDims.plain M K N).lhsIdx (ix2 p q) k) * r ((DotDims.plain M K N).rhsIdx (ix2 p q) k))
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain matrix product into the zero splat, at `(p, q)`: row `p` of the left against column `q` of the right. -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    matmul d prec l r (constant ⟨2, ![M, N]⟩ .f32 0x00000000#32) (ix2 p q) = ∑ k : Fin K, l (ix2 p k) * r (ix2 k q) := by
  subst hd
  show FloatOps.matmul (DotDims.plain M K N) prec l r (constant ⟨2, ![M, N]⟩ .f32 0x00000000#32) (ix2 p q) = _
  rw [Ideal.matmul_constant_zero_apply]
  exact plain_sum l r p q

/-- The host's plain matrix product at `(p, q)`: the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  subst hd
  simp only [Host.dotGeneral]
  rw [Ideal.dotGeneral_apply]
  exact plain_sum l r p q

end Plain

/-! ## A bias along the columns, in both spellings -/

section Bias
variable {R H : ℕ} {α : Type}

/-- The kernel's spelling: the bias cast to one row, that row broadcast down the rows. -/
theorem bias_cast_apply (b : (⟨1, ![H]⟩ : Shape).Idx → α) (hsc : (⟨1, ![H]⟩ : Shape).ShapeCasts ⟨2, ![1, H]⟩)
    (hbc : (⟨2, ![1, H]⟩ : Shape).Broadcasts ⟨2, ![R, H]⟩) (n : Fin R) (h : Fin H) :
    broadcastTo ⟨2, ![R, H]⟩ (shapeCast ⟨2, ![1, H]⟩ b hsc) hbc (ix2 n h) = b (ix1 h) := by
  rw [broadcastTo_1b_ab_apply, shapeCast_a_1a_apply]

/-- The host's spelling: the bias broadcast to one row, then down the rows. -/
theorem bias_bcast_apply (b : (⟨1, ![H]⟩ : Shape).Idx → α) (d1 : Fin 1 → Fin 2) (hd1 : d1 0 = 1)
    (h1 : (⟨1, ![H]⟩ : Shape).BroadcastsInDim ⟨2, ![1, H]⟩ d1) (d2 : Fin 2 → Fin 2) (hd20 : d2 0 = 0) (hd21 : d2 1 = 1)
    (h2 : (⟨2, ![1, H]⟩ : Shape).BroadcastsInDim ⟨2, ![R, H]⟩ d2) (n : Fin R) (h : Fin H) :
    broadcastInDim ⟨2, ![R, H]⟩ d2 h2 (broadcastInDim ⟨2, ![1, H]⟩ d1 h1 b) (ix2 n h) = b (ix1 h) := by
  rw [broadcastInDim_apply d2 h2 _ (ix2 n h) (ix2 (0 : Fin 1) h) (fun a => by
    match a with
    | ⟨0, _⟩ => show 0 = if (1 : ℕ) = 1 then 0 else _; rw [if_pos rfl]
    | ⟨1, _⟩ =>
      show h.val = if H = 1 then 0 else (ix2 n h (d2 1)).val
      rw [hd21]
      split
      · have := h.isLt; omega
      · rfl)]
  exact broadcastInDim_apply d1 h1 b (ix2 (0 : Fin 1) h) (ix1 h) (fun a => by
    match a with
    | ⟨0, _⟩ =>
      show h.val = if H = 1 then 0 else (ix2 (0 : Fin 1) h (d1 0)).val
      rw [hd1]
      split
      · have := h.isLt; omega
      · rfl)

end Bias

/-! ## A dense layer of an array, read at a row -/

section Dense
variable {R K H : ℕ}

/-- The kernel's dense layer: the narrowed operands' product into the zero splat, plus the bias row. -/
theorem dense_kernel_apply (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (hy : FTy.bf16.bits < FTy.f32.bits) (hW : FTy.bf16.bits < FTy.f32.bits)
    (hsc : (⟨1, ![H]⟩ : Shape).ShapeCasts ⟨2, ![1, H]⟩) (hbc : (⟨2, ![1, H]⟩ : Shape).Broadcasts ⟨2, ![R, H]⟩)
    (n : Fin R) (h : Fin H) :
    addf (matmul d none (truncf .bf16 y hy) (truncf .bf16 W hW) (constant ⟨2, ![R, H]⟩ .f32 0x00000000#32))
        (broadcastTo ⟨2, ![R, H]⟩ (shapeCast ⟨2, ![1, H]⟩ b hsc) hbc) (ix2 n h)
      = dense W b (fun k => y (ix2 n k)) h := by
  show matmul d none (truncf .bf16 y hy) (truncf .bf16 W hW) (constant ⟨2, ![R, H]⟩ .f32 0x00000000#32) (ix2 n h)
      + broadcastTo ⟨2, ![R, H]⟩ (shapeCast ⟨2, ![1, H]⟩ b hsc) hbc (ix2 n h) = _
  rw [matmul_plain_apply d hd, bias_cast_apply]
  rfl

/-- The host's dense layer: `dot_general` plus the bias broadcast in two steps. -/
theorem dense_host_apply (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (d1 : Fin 1 → Fin 2) (hd1 : d1 0 = 1) (h1 : (⟨1, ![H]⟩ : Shape).BroadcastsInDim ⟨2, ![1, H]⟩ d1)
    (d2 : Fin 2 → Fin 2) (hd20 : d2 0 = 0) (hd21 : d2 1 = 1) (h2 : (⟨2, ![1, H]⟩ : Shape).BroadcastsInDim ⟨2, ![R, H]⟩ d2)
    (n : Fin R) (h : Fin H) :
    addf (Host.dotGeneral d none y W) (broadcastInDim ⟨2, ![R, H]⟩ d2 h2 (broadcastInDim ⟨2, ![1, H]⟩ d1 h1 b)) (ix2 n h)
      = dense W b (fun k => y (ix2 n k)) h := by
  show Host.dotGeneral d none y W (ix2 n h)
      + broadcastInDim ⟨2, ![R, H]⟩ d2 h2 (broadcastInDim ⟨2, ![1, H]⟩ d1 h1 b) (ix2 n h) = _
  rw [dotGeneral_plain_apply d hd, bias_bcast_apply b d1 hd1 h1 d2 hd20 hd21 h2]
  rfl

/-- The kernel's positive part: the maximum with a splat of the zero word. -/
theorem relu_kernel_apply (z : FVec Ideal ⟨2, ![R, H]⟩ .f32) (n : Fin R) (h : Fin H) :
    maximumf z (broadcast ⟨2, ![R, H]⟩ (Scalar.ofBits (F := Ideal) .f32 0x00000000#32)) (ix2 n h)
      = relu (fun j => z (ix2 n j)) h := rfl

/-- The host's positive part: the maximum with the zero constant broadcast from a scalar. -/
theorem relu_host_apply (z : FVec Ideal ⟨2, ![R, H]⟩ .f32) (d0 : Fin 0 → Fin 2)
    (hb : (⟨0, ![]⟩ : Shape).BroadcastsInDim ⟨2, ![R, H]⟩ d0) (n : Fin R) (h : Fin H) :
    maximumf z (broadcastInDim ⟨2, ![R, H]⟩ d0 hb (constant (F := Ideal) ⟨0, ![]⟩ .f32 0x00000000#32)) (ix2 n h)
      = relu (fun j => z (ix2 n j)) h := rfl

end Dense

/-! ## A concatenation along the columns, read at a row -/

section Cat
variable {R A B D E C : ℕ}

/-- Two arrays joined along the columns: row `n` of the result is the two rows laid end to end. -/
theorem cat2_apply (x : (⟨2, ![R, A]⟩ : Shape).Idx → EReal) (y : (⟨2, ![R, B]⟩ : Shape).Idx → EReal)
    (hc : Shape.Concatenates [(⟨2, ![R, A]⟩ : Shape), ⟨2, ![R, B]⟩] ⟨2, ![R, C]⟩ 1) (hC : C = A + B) (n : Fin R) (j : Fin C) :
    concatenate ⟨2, ![R, C]⟩ 1 [⟨⟨2, ![R, A]⟩, x⟩, ⟨⟨2, ![R, B]⟩, y⟩] hc (ix2 n j)
      = cat2 C (fun k => x (ix2 n k)) (fun k => y (ix2 n k)) j := by
  unfold cat2
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · have h2 : j.val - A < B := by omega
    rw [dif_neg hj, dif_pos h2]
    exact concatenate_apply_piece (1 : Fin (⟨2, ![R, C]⟩ : Shape).rank) [⟨⟨2, ![R, A]⟩, x⟩, ⟨⟨2, ![R, B]⟩, y⟩] hc (ix2 n j) 1 (by simp) ⟨2, ![R, B]⟩ y rfl rfl A
      (by simp) (ix2 n ⟨j.val - A, h2⟩) (fun b hb => by
        match b with
        | ⟨0, _⟩ => rfl
        | ⟨1, _⟩ => exact absurd (Fin.ext rfl) hb) (by show A + (j.val - A) = j.val; omega)

/-- Three arrays joined along the columns. -/
theorem cat3_apply (x : (⟨2, ![R, A]⟩ : Shape).Idx → EReal) (y : (⟨2, ![R, B]⟩ : Shape).Idx → EReal)
    (z : (⟨2, ![R, D]⟩ : Shape).Idx → EReal)
    (hc : Shape.Concatenates [(⟨2, ![R, A]⟩ : Shape), ⟨2, ![R, B]⟩, ⟨2, ![R, D]⟩] ⟨2, ![R, C]⟩ 1) (hC : C = A + B + D)
    (n : Fin R) (j : Fin C) :
    concatenate ⟨2, ![R, C]⟩ 1 [⟨⟨2, ![R, A]⟩, x⟩, ⟨⟨2, ![R, B]⟩, y⟩, ⟨⟨2, ![R, D]⟩, z⟩] hc (ix2 n j)
      = cat3 C (fun k => x (ix2 n k)) (fun k => y (ix2 n k)) (fun k => z (ix2 n k)) j := by
  unfold cat3
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · rw [dif_neg hj]
    by_cases h2 : j.val - A < B
    · rw [dif_pos h2]
      exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 1 (by simp) ⟨2, ![R, B]⟩ y rfl rfl A
        (by simp) (ix2 n ⟨j.val - A, h2⟩) (fun b hb => by
          match b with
          | ⟨0, _⟩ => rfl
          | ⟨1, _⟩ => exact absurd (Fin.ext rfl) hb) (by show A + (j.val - A) = j.val; omega)
    · have h3 : j.val - A - B < D := by omega
      rw [dif_neg h2, dif_pos h3]
      exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 2 (by simp) ⟨2, ![R, D]⟩ z rfl rfl (A + B)
        (by simp) (ix2 n ⟨j.val - A - B, h3⟩) (fun b hb => by
          match b with
          | ⟨0, _⟩ => rfl
          | ⟨1, _⟩ => exact absurd (Fin.ext rfl) hb) (by show A + B + (j.val - A - B) = j.val; omega)

/-- Four arrays joined along the columns. -/
theorem cat4_apply (x : (⟨2, ![R, A]⟩ : Shape).Idx → EReal) (y : (⟨2, ![R, B]⟩ : Shape).Idx → EReal)
    (z : (⟨2, ![R, D]⟩ : Shape).Idx → EReal) (w : (⟨2, ![R, E]⟩ : Shape).Idx → EReal)
    (hc : Shape.Concatenates [(⟨2, ![R, A]⟩ : Shape), ⟨2, ![R, B]⟩, ⟨2, ![R, D]⟩, ⟨2, ![R, E]⟩] ⟨2, ![R, C]⟩ 1)
    (hC : C = A + B + D + E) (n : Fin R) (j : Fin C) :
    concatenate ⟨2, ![R, C]⟩ 1 [⟨⟨2, ![R, A]⟩, x⟩, ⟨⟨2, ![R, B]⟩, y⟩, ⟨⟨2, ![R, D]⟩, z⟩, ⟨⟨2, ![R, E]⟩, w⟩] hc (ix2 n j)
      = cat4 C (fun k => x (ix2 n k)) (fun k => y (ix2 n k)) (fun k => z (ix2 n k)) (fun k => w (ix2 n k)) j := by
  unfold cat4
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · rw [dif_neg hj]
    by_cases h2 : j.val - A < B
    · rw [dif_pos h2]
      exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 1 (by simp) ⟨2, ![R, B]⟩ y rfl rfl A
        (by simp) (ix2 n ⟨j.val - A, h2⟩) (fun b hb => by
          match b with
          | ⟨0, _⟩ => rfl
          | ⟨1, _⟩ => exact absurd (Fin.ext rfl) hb) (by show A + (j.val - A) = j.val; omega)
    · rw [dif_neg h2]
      by_cases h3 : j.val - A - B < D
      · rw [dif_pos h3]
        exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 2 (by simp) ⟨2, ![R, D]⟩ z rfl rfl (A + B)
          (by simp) (ix2 n ⟨j.val - A - B, h3⟩) (fun b hb => by
            match b with
            | ⟨0, _⟩ => rfl
            | ⟨1, _⟩ => exact absurd (Fin.ext rfl) hb) (by show A + B + (j.val - A - B) = j.val; omega)
      · have h4 : j.val - A - B - D < E := by omega
        rw [dif_neg h3, dif_pos h4]
        exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 3 (by simp) ⟨2, ![R, E]⟩ w rfl rfl
          (A + B + D) (by simp; omega) (ix2 n ⟨j.val - A - B - D, h4⟩) (fun b hb => by
            match b with
            | ⟨0, _⟩ => rfl
            | ⟨1, _⟩ => exact absurd (Fin.ext rfl) hb) (by show A + B + D + (j.val - A - B - D) = j.val; omega)

end Cat

/-! ## The host's minimum over a middle axis of extent four -/

section Min4
variable {R H : ℕ}

/-- A fold of a commutative, associative operation over the four positions, written out. -/
theorem fold_univ_fin4 {β : Type} (op : β → β → β) [Std.Commutative op] [Std.Associative op] (init : β) (f : Fin 4 → β) :
    (Finset.univ : Finset (Fin 4)).fold op init f = op (f 0) (op (f 1) (op (f 2) (op (f 3) init))) := by
  have hu : (Finset.univ : Finset (Fin 4)) = insert 0 (insert 1 (insert 2 {3})) := by decide
  rw [hu, Finset.fold_insert (by decide), Finset.fold_insert (by decide), Finset.fold_insert (by decide), Finset.fold_singleton]

/-- The reduced index `(n, c)` with the middle coordinate `k` put back is `(n, k, c)`. -/
theorem lift_mid (h : (⟨3, ![R, 4, H]⟩ : Shape).Reduces [1] (⟨2, ![R, H]⟩ : Shape)) (n : Fin R) (c : Fin H)
    (k : Fin ((⟨3, ![R, 4, H]⟩ : Shape).size 1)) : h.lift (ix2 n c) k = ix3 n (⟨k.val, k.isLt⟩ : Fin 4) c := by
  funext a; apply Fin.ext
  fin_cases a <;> rfl

/-- From +∞ the host's reduce with a minimum body over the middle axis, at `(n, c)`, is the least of the four entries. -/
theorem reduceMin4_apply (z : FVec Ideal ⟨3, ![R, 4, H]⟩ .f32)
    (h' : (⟨3, ![R, 4, H]⟩ : Shape).ReducesTo [1] (⟨2, ![R, H]⟩ : Shape))
    (h : (⟨3, ![R, 4, H]⟩ : Shape).Reduces [1] (⟨2, ![R, H]⟩ : Shape)) (hu : 0 < (⟨0, ![]⟩ : Shape).numel)
    (n : Fin R) (c : Fin H) :
    Host.reduce FloatOps.minimumf z (constant (F := Ideal) (⟨0, ![]⟩ : Shape) .f32 0x7F800000#32) h' hu (ix2 n c)
      = min (min (min (z (ix3 n 0 c)) (z (ix3 n 1 c))) (z (ix3 n 2 c))) (z (ix3 n 3 c)) := by
  rw [Host.reduce_eq_fold_single FloatOps.minimumf z _ h' h hu]
  have e := fold_univ_fin4 (min : Ideal .f32 → Ideal .f32 → Ideal .f32) (Ideal.ofBits .f32 0x7F800000#32)
    (fun k : Fin 4 => z (ix3 n k c))
  have htop : ∀ y : Ideal .f32, min y (Ideal.ofBits .f32 0x7F800000#32) = y := by
    intro y; show min y (Ideal.ofBits .f32 0x7F800000#32) = y; simp [Ideal.ofBits, Ideal.ieee]
  rw [htop, ← min_assoc, ← min_assoc] at e
  refine Eq.trans ?_ e
  have hf : (z ∘ h.lift (ix2 n c)) = fun k : Fin 4 => z (ix3 n k c) := funext fun k => congrArg z (lift_mid h n c k)
  exact congrArg (fun f => Finset.fold min (Ideal.ofBits .f32 0x7F800000#32) f (Finset.univ : Finset (Fin 4))) hf

end Min4

/-! ## Layout steps of a kernel body, read at a row -/

section Layout
variable {R P H : ℕ} {α : Type}

/-- One column broadcast across the columns: at `(n, h)` the column's entry in row `n`. -/
theorem broadcastTo_a1_ab_apply (v : (⟨2, ![R, 1]⟩ : Shape).Idx → α) (hbc : (⟨2, ![R, 1]⟩ : Shape).Broadcasts ⟨2, ![R, H]⟩)
    (n : Fin R) (h : Fin H) : broadcastTo ⟨2, ![R, H]⟩ v hbc (ix2 n h) = v (ix2 n (0 : Fin 1)) := by
  refine broadcastTo_apply v hbc (ix2 n h) (ix2 n (0 : Fin 1)) fun ax => ?_
  match ax with
  | ⟨0, _⟩ =>
    show n.val = if R = 1 then 0 else n.val
    split
    · have := n.isLt; omega
    · rfl
  | ⟨1, _⟩ => show 0 = if (1 : ℕ) = 1 then 0 else h.val; rw [if_pos rfl]

/-- A middle unit axis dropped by a shape cast: `(n, k)` reads `(n, 0, k)`. -/
theorem shapeCast_a1b_ab_apply (v : (⟨3, ![R, 1, H]⟩ : Shape).Idx → α) (hsc : (⟨3, ![R, 1, H]⟩ : Shape).ShapeCasts ⟨2, ![R, H]⟩)
    (n : Fin R) (k : Fin H) : shapeCast ⟨2, ![R, H]⟩ v hsc (ix2 n k) = v (ix3 n (0 : Fin 1) k) :=
  shapeCast_apply v hsc _ _ (by
    rw [Shape.rowMajor_val_three, Shape.rowMajor_val_two]
    show (n.val * 1 + 0) * H + k.val = n.val * H + k.val
    rw [Nat.mul_one, Nat.add_zero])

/-- A load of the slab at middle position `s` of a rank-3 buffer: `(n, 0, k)` of the slab is `(n, s, k)` of the buffer. -/
theorem ld_mid_apply {Val : EltTy → Type} {e : EltTy} (x : (⟨3, ![R, P, H]⟩ : Shape).Idx → Val e) (s : ℕ) (hs : s < P)
    (inb : ∀ a, (![0, s, 0] : Fin 3 → ℕ) a + (⟨3, ![R, 1, H]⟩ : Shape).size a ≤ (⟨3, ![R, P, H]⟩ : Shape).size a)
    (n : Fin R) (k : Fin H) :
    View.ld x (Rect.unit (s := ⟨3, ![R, P, H]⟩) ![0, s, 0] (⟨3, ![R, 1, H]⟩ : Shape).size inb) (ix3 n (0 : Fin 1) k)
      = x (ix3 n (⟨s, hs⟩ : Fin P) k) := by
  show x ((Rect.unit (s := ⟨3, ![R, P, H]⟩) ![0, s, 0] (⟨3, ![R, 1, H]⟩ : Shape).size inb).emb (ix3 n (0 : Fin 1) k)) = _
  refine congrArg x (funext fun a => Fin.ext ?_)
  match a with
  | ⟨0, _⟩ => show 0 + 1 * n.val = n.val; omega
  | ⟨1, _⟩ => show s + 1 * 0 = s; omega
  | ⟨2, _⟩ => show 0 + 1 * k.val = k.val; omega

/-- A kernel's logistic function, entry by entry. -/
theorem logistic_apply {s : Shape} (a : FVec Ideal s .f32) (i : s.Idx) : logistic a i = Ideal.logistic (a i) := rfl

end Layout

/-! ## The host's dense layer with its printed broadcast dimensions, and its logistic function -/

section Host
variable {R K H : ℕ}

/-- `dense_host_apply` at the usual broadcast dimensions: the bias to axis 1 of one row, that row to both axes. -/
theorem dense_host_apply' (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (h1 : (⟨1, ![H]⟩ : Shape).BroadcastsInDim ⟨2, ![1, H]⟩ ![1]) (h2 : (⟨2, ![1, H]⟩ : Shape).BroadcastsInDim ⟨2, ![R, H]⟩ ![0, 1])
    (n : Fin R) (h : Fin H) :
    addf (Host.dotGeneral d none y W) (broadcastInDim ⟨2, ![R, H]⟩ ![0, 1] h2 (broadcastInDim ⟨2, ![1, H]⟩ ![1] h1 b)) (ix2 n h)
      = dense W b (fun k => y (ix2 n k)) h :=
  dense_host_apply d hd y W b _ rfl h1 _ rfl rfl h2 n h

/-- The logistic function spelt out on the host — one over one plus the exponential of the negation,
    the ones broadcast from a scalar constant — is the logistic function of the entry. -/
theorem logistic_host_apply {s : Shape} (z : FVec Ideal s .f32) (d0 : Fin 0 → Fin s.rank)
    (hb1 hb2 : (⟨0, ![]⟩ : Shape).BroadcastsInDim s d0) (i : s.Idx) :
    Host.divf (broadcastInDim s d0 hb1 (constant (F := Ideal) ⟨0, ![]⟩ .f32 0x3F800000#32))
        (addf (broadcastInDim s d0 hb2 (constant (F := Ideal) ⟨0, ![]⟩ .f32 0x3F800000#32)) (Host.exp (Host.negf z))) i
      = Ideal.logistic (z i) := by
  show FloatOps.hostDivf (Ideal.ofBits .f32 0x3F800000#32)
      (FloatOps.addf (Ideal.ofBits .f32 0x3F800000#32) (FloatOps.hostUnary .exp (FloatOps.hostNegf (z i)))) = _
  rw [Ideal.ofBits_one_f32]
  rfl

end Host

end RowOps

end
-- ==== Proof.ProjValue.lean ====
/-
  The two linear projections (the first pallas_call) as one function of the arrays it is entered with.

  The call tiles the 50000 nodes into 10 blocks of 5000 rows; both weight matrices and both bias rows are read whole at
  every point.  At node `n` and output feature `j` each output holds `(∑ k, x (n, k) * W (j, k)) + b (0, j)`: the body
  narrows both operands (the identity on the ideal values), transposes the weight matrix, contracts into a zero
  accumulator and adds the bias row broadcast down the rows.  What point `t` writes back is block `t` of that one function
  of the whole arrays, and the 10 blocks cover each output array.
-/
import proofs.«178829_j49632642073094_1_alg».proof.Proof.Gen.KernelIdeal.Frame
import proofs.«178829_j49632642073094_1_alg».proof.Proof.LibRowOps
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Proj

open Cert.KernelIdeal Cert.KernelIdeal.Gen

open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- A dense layer of the node features: row `n` against row `j` of the weight matrix, plus the bias row's entry `j`. -/
def proj (x : S50000x128.Idx → EReal) (W : S128x128.Idx → EReal) (b : S1x128.Idx → EReal) : S50000x128.Idx → EReal :=
  fun i => (∑ k : Fin 128, x (ix2 (⟨(i 0).val, idx2_lt0 i⟩ : Fin 50000) k) * W (ix2 (⟨(i 1).val, idx2_lt1 i⟩ : Fin 128) k))
    + b (ix2 (0 : Fin 1) (⟨(i 1).val, idx2_lt1 i⟩ : Fin 128))

/-- The weight matrix transposed, at `(k, q)`, is the matrix at `(q, k)`. -/
theorem transpose_at (W : FVec Ideal S128x128 .bf16) (k q : Fin 128) :
    transpose S128x128 [1, 0] W transposes_S128x128_p1_0_S128x128 (ix2 k q) = W (ix2 q k) :=
  transpose_apply [1, 0] W transposes_S128x128_p1_0_S128x128 (ix2 k q) (ix2 q k) (fun b => by
    match b with
    | ⟨0, _⟩ => rfl
    | ⟨1, _⟩ => rfl)

/-- A projection's stored value at row `r`, column `q` of its block. -/
theorem pay_apply (x0 : Vec Ideal S5000x128 .f32) (x2 : Vec Ideal S128x128 .f32) (x8 : Vec Ideal S1x128 .f32) (r : Fin 5000) (q : Fin 128) :
    k0_pay2 x0 x2 x8 (ix2 r q) = (∑ k : Fin 128, x0 (ix2 r k) * x2 (ix2 q k)) + x8 (ix2 (0 : Fin 1) q) := by
  unfold k0_pay2 k0_pay1
  rw [shapeCast_self]
  show (matmul (F := Ideal) dot_S5000x128_S128x128_S5000x128_1_0_0_1_n_n none (truncf (F := Ideal) .bf16 x0 bitsLt_bf16_f32)
        (transpose S128x128 [1, 0] (truncf (F := Ideal) .bf16 x2 bitsLt_bf16_f32) transposes_S128x128_p1_0_S128x128)
        (constant (F := Ideal) S5000x128 .f32 0x00000000#32) (ix2 r q) : EReal)
      + (broadcastTo S5000x128 x8 broadcasts_S1x128_S5000x128 (ix2 r q) : EReal) = _
  rw [RowOps.matmul_plain_apply dot_S5000x128_S128x128_S5000x128_1_0_0_1_n_n rfl, broadcastTo_1b_ab_apply]
  refine congrArg (· + x8 (ix2 (0 : Fin 1) q)) (Finset.sum_congr rfl fun k _ => ?_)
  rw [transpose_at]
  rfl

/-- The two payloads are one function of their operands. -/
theorem pay3_eq (x0 : Vec Ideal S5000x128 .f32) (x4 : Vec Ideal S128x128 .f32) (x15 : Vec Ideal S1x128 .f32) :
    k0_pay3 x0 x4 x15 = k0_pay2 x0 x4 x15 := rfl

/-- The node-feature window and both outputs start at row `5000 t`; the weights and the bias rows are read whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- What point `t` writes back through output window 5 is block `t` of `proj` of the arrays as the call finds them. -/
theorem flushed5_eq (c : Dev nD) (t : Fin cfg0.N) :
    (dat0 V c).flushed 5 t = ((cfg0.win 5).blk t).view.read (Elt Ideal) (proj (V c main_arg0) (V c main_arg4) (V c main_v0)) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51, e60, e61⟩ := idx_facts t
  funext j
  obtain ⟨r, q, rfl⟩ : ∃ (r : Fin 5000) (q : Fin 128), j = ix2 r q := ⟨j 0, j 1, eq_ix2 j⟩
  show k0_pay2 (iblk0 V c 0 t) (iblk0 V c 1 t) (iblk0 V c 2 t) (ix2 r q)
      = proj (V c main_arg0) (V c main_arg4) (V c main_v0) (((cfg0.win 5).blk t).view.emb (ix2 r q))
  refine (pay_apply (iblk0 V c 0 t) (iblk0 V c 1 t) (iblk0 V c 2 t) r q).trans ?_
  unfold proj
  refine congrArg₂ (· + ·) (Finset.sum_congr rfl fun k _ => congrArg₂ (· * ·) ?_ ?_) ?_
  · show V c main_arg0 (((cfg0.win 0).blk t).view.emb (ix2 r k)) = V c main_arg0 _
    refine congrArg _ (funext fun a => Fin.ext ?_)
    match a with
    | ⟨0, _⟩ => show win0_0.index t (0 : Fin 2) * 5000 + 1 * r.val = win0_5.index t (0 : Fin 2) * 5000 + 1 * r.val; omega
    | ⟨1, _⟩ => show win0_0.index t (1 : Fin 2) * 128 + 1 * k.val = k.val; omega
  · show V c main_arg4 (((cfg0.win 1).blk t).view.emb (ix2 q k)) = V c main_arg4 _
    refine congrArg _ (funext fun a => Fin.ext ?_)
    match a with
    | ⟨0, _⟩ => show win0_1.index t (0 : Fin 2) * 128 + 1 * q.val = win0_5.index t (1 : Fin 2) * 128 + 1 * q.val; omega
    | ⟨1, _⟩ => show win0_1.index t (1 : Fin 2) * 128 + 1 * k.val = k.val; omega
  · show V c main_v0 (((cfg0.win 2).blk t).view.emb (ix2 (0 : Fin 1) q)) = V c main_v0 _
    refine congrArg _ (funext fun a => Fin.ext ?_)
    match a with
    | ⟨0, _⟩ => show win0_2.index t (0 : Fin 2) * 1 + 1 * 0 = 0; omega
    | ⟨1, _⟩ => show win0_2.index t (1 : Fin 2) * 128 + 1 * q.val = win0_5.index t (1 : Fin 2) * 128 + 1 * q.val; omega

/-- An index of output 5's array lies in point `t`'s block iff each coordinate lies in the block's range. -/
theorem mem_blk5 (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v2_0).slice (win0_5.rect t)).set ↔ _
  rw [View.set_slice_whole, Rect.mem_set_unit]
  exact Iff.rfl

/-- Output 5's array after the call is `proj` of the arrays as the call finds them: node `n` lies in block `n / 5000`. -/
theorem final5 (c : Dev nD) : (dat0 V c).arrAt 5 cfg0.N = proj (V c main_arg0) (V c main_arg4) (V c main_v0) :=
  (dat0 V c).arrAt_eq_of_cover 5 _ (fun t _ => flushed5_eq V c t) fun i => by
    have hi0 : (i 0).val < 50000 := idx2_lt0 i
    have hi1 : (i 1).val < 128 := idx2_lt1 i
    have hN : cfg0.N = 10 := N_0
    refine ⟨⟨(i 0).val / 5000, by rw [hN]; omega⟩, flush0_5 _, ?_⟩
    rw [mem_blk5]
    obtain ⟨-, -, -, -, -, -, -, -, -, -, e50, e51, e60, e61⟩ := idx_facts ⟨(i 0).val / 5000, by rw [hN]; omega⟩
    intro a
    match a with
    | ⟨0, _⟩ =>
      show win0_5.index _ (0 : Fin 2) * 5000 ≤ (i 0).val ∧ (i 0).val < win0_5.index _ (0 : Fin 2) * 5000 + 5000
      rw [e50]; show (i 0).val / 5000 * 5000 ≤ (i 0).val ∧ (i 0).val < (i 0).val / 5000 * 5000 + 5000; omega
    | ⟨1, _⟩ =>
      show win0_5.index _ (1 : Fin 2) * 128 ≤ (i 1).val ∧ (i 1).val < win0_5.index _ (1 : Fin 2) * 128 + 128
      rw [e51]; omega

/-- What point `t` writes back through output window 6 is block `t` of `proj` of the arrays as the call finds them. -/
theorem flushed6_eq (c : Dev nD) (t : Fin cfg0.N) :
    (dat0 V c).flushed 6 t = ((cfg0.win 6).blk t).view.read (Elt Ideal) (proj (V c main_arg0) (V c main_arg6) (V c main_v1)) := by
  show (cfg0.win 6).cut (grid0.coords t) ((dat0 V c).after 6 t) = _
  rw [after0_6]
  unfold out0_6
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51, e60, e61⟩ := idx_facts t
  funext j
  obtain ⟨r, q, rfl⟩ : ∃ (r : Fin 5000) (q : Fin 128), j = ix2 r q := ⟨j 0, j 1, eq_ix2 j⟩
  show k0_pay3 (iblk0 V c 0 t) (iblk0 V c 3 t) (iblk0 V c 4 t) (ix2 r q)
      = proj (V c main_arg0) (V c main_arg6) (V c main_v1) (((cfg0.win 6).blk t).view.emb (ix2 r q))
  refine (congrFun (pay3_eq (iblk0 V c 0 t) (iblk0 V c 3 t) (iblk0 V c 4 t)) (ix2 r q)).trans ?_
  refine (pay_apply (iblk0 V c 0 t) (iblk0 V c 3 t) (iblk0 V c 4 t) r q).trans ?_
  unfold proj
  refine congrArg₂ (· + ·) (Finset.sum_congr rfl fun k _ => congrArg₂ (· * ·) ?_ ?_) ?_
  · show V c main_arg0 (((cfg0.win 0).blk t).view.emb (ix2 r k)) = V c main_arg0 _
    refine congrArg _ (funext fun a => Fin.ext ?_)
    match a with
    | ⟨0, _⟩ => show win0_0.index t (0 : Fin 2) * 5000 + 1 * r.val = win0_6.index t (0 : Fin 2) * 5000 + 1 * r.val; omega
    | ⟨1, _⟩ => show win0_0.index t (1 : Fin 2) * 128 + 1 * k.val = k.val; omega
  · show V c main_arg6 (((cfg0.win 3).blk t).view.emb (ix2 q k)) = V c main_arg6 _
    refine congrArg _ (funext fun a => Fin.ext ?_)
    match a with
    | ⟨0, _⟩ => show win0_3.index t (0 : Fin 2) * 128 + 1 * q.val = win0_6.index t (1 : Fin 2) * 128 + 1 * q.val; omega
    | ⟨1, _⟩ => show win0_3.index t (1 : Fin 2) * 128 + 1 * k.val = k.val; omega
  · show V c main_v1 (((cfg0.win 4).blk t).view.emb (ix2 (0 : Fin 1) q)) = V c main_v1 _
    refine congrArg _ (funext fun a => Fin.ext ?_)
    match a with
    | ⟨0, _⟩ => show win0_4.index t (0 : Fin 2) * 1 + 1 * 0 = 0; omega
    | ⟨1, _⟩ => show win0_4.index t (1 : Fin 2) * 128 + 1 * q.val = win0_6.index t (1 : Fin 2) * 128 + 1 * q.val; omega

/-- An index of output 6's array lies in point `t`'s block iff each coordinate lies in the block's range. -/
theorem mem_blk6 (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v2_1).slice (win0_6.rect t)).set ↔ _
  rw [View.set_slice_whole, Rect.mem_set_unit]
  exact Iff.rfl

/-- Output 6's array after the call is `proj` of the arrays as the call finds them: node `n` lies in block `n / 5000`. -/
theorem final6 (c : Dev nD) : (dat0 V c).arrAt 6 cfg0.N = proj (V c main_arg0) (V c main_arg6) (V c main_v1) :=
  (dat0 V c).arrAt_eq_of_cover 6 _ (fun t _ => flushed6_eq V c t) fun i => by
    have hi0 : (i 0).val < 50000 := idx2_lt0 i
    have hi1 : (i 1).val < 128 := idx2_lt1 i
    have hN : cfg0.N = 10 := N_0
    refine ⟨⟨(i 0).val / 5000, by rw [hN]; omega⟩, flush0_6 _, ?_⟩
    rw [mem_blk6]
    obtain ⟨-, -, -, -, -, -, -, -, -, -, e50, e51, e60, e61⟩ := idx_facts ⟨(i 0).val / 5000, by rw [hN]; omega⟩
    intro a
    match a with
    | ⟨0, _⟩ =>
      show win0_6.index _ (0 : Fin 2) * 5000 ≤ (i 0).val ∧ (i 0).val < win0_6.index _ (0 : Fin 2) * 5000 + 5000
      rw [e60]; show (i 0).val / 5000 * 5000 ≤ (i 0).val ∧ (i 0).val < (i 0).val / 5000 * 5000 + 5000; omega
    | ⟨1, _⟩ =>
      show win0_6.index _ (1 : Fin 2) * 128 ≤ (i 1).val ∧ (i 1).val < win0_6.index _ (1 : Fin 2) * 128 + 128
      rw [e61]; omega

end Cert.KernelIdeal.Proj

end
-- ==== Proof.EdgeValue.lean ====
/-
  The edge transform (the second pallas_call) as one function of the arrays it is entered with.

  The call tiles the 800000 edges into 50 blocks of 16000 rows.  At edge `e` and feature `j` the body computes
  `exp (0 - w e / s e) * g (e, j)`: `w` the edge's weight (a column), `s` the normaliser gathered for the edge's
  destination (a column), `g` the source node's projected feature row.  Block `t` of every window is rows
  `16000 t … 16000 t + 15999`, so what point `t` writes back is block `t` of that one function of the whole arrays, and
  the 50 blocks cover the result array.
-/
import proofs.«178829_j49632642073094_1_alg».proof.Proof.Gen.KernelIdeal.Frame
import proofs.«178829_j49632642073094_1_alg».proof.Proof.LibRowOps
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Edge

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- Row `e` of a column array. -/
abbrev col (i : S800000x128.Idx) : S800000x1.Idx := ix2 (⟨(i 0).val, idx2_lt0 i⟩ : Fin 800000) (0 : Fin 1)

/-- The message of edge `e` at feature `j`: `exp (0 - w e / s e)` times the gathered source feature. -/
def msg (w s : S800000x1.Idx → EReal) (g : S800000x128.Idx → EReal) : S800000x128.Idx → EReal :=
  fun i => FloatOps.mulf (F := Ideal) (φ := .f32)
    (FloatOps.exp (F := Ideal) (φ := .f32) (FloatOps.subf (F := Ideal) (φ := .f32) (Ideal.ofBits .f32 0x00000000#32)
      (FloatOps.divf (F := Ideal) (φ := .f32) (w (col i)) (s (col i)))))
    (g i)

/-- The body's stored value at row `r`, column `q` of its block. -/
theorem pay_apply (x0 x1 : Vec Ideal S16000x1 .f32) (x7 : Vec Ideal S16000x128 .f32) (r : Fin 16000) (q : Fin 128) :
    k1_pay1 x0 x1 x7 (ix2 r q) = FloatOps.mulf (F := Ideal) (φ := .f32)
      (FloatOps.exp (F := Ideal) (φ := .f32) (FloatOps.subf (F := Ideal) (φ := .f32) (Ideal.ofBits .f32 0x00000000#32)
        (FloatOps.divf (F := Ideal) (φ := .f32) (x0 (ix2 r (0 : Fin 1))) (x1 (ix2 r (0 : Fin 1))))))
      (x7 (ix2 r q)) := by
  unfold k1_pay1
  rw [shapeCast_self, shapeCast_self]
  show FloatOps.mulf (F := Ideal) (φ := .f32) (broadcastTo S16000x128 _ broadcasts_S16000x1_S16000x128 (ix2 r q)) (x7 (ix2 r q)) = _
  rw [RowOps.broadcastTo_a1_ab_apply]
  rfl

/-- Every window's block at point `t` starts at row `16000 t`, column 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- What point `t` writes back is block `t` of `msg` of the arrays as the call finds them. -/
theorem flushed_eq (c : Dev nD) (t : Fin cfg1.N) :
    (dat1 V c).flushed 3 t = ((cfg1.win 3).blk t).view.read (Elt Ideal) (msg (V c main_arg1) (V c main_v14) (V c main_v21)) := by
  show (cfg1.win 3).cut (grid1.coords t) ((dat1 V c).after 3 t) = _
  rw [after1_3]
  unfold out1_3
  rw [View.canon_unit_zero hz]
  simp only [View.ld_unit_zero (S := S16000x1) hz, View.ld_unit_zero (S := S16000x128) hz]
  obtain ⟨e0, e1, e2, e3, e4, e5, e6, e7⟩ := idx_facts t
  funext j
  obtain ⟨r, q, rfl⟩ : ∃ (r : Fin 16000) (q : Fin 128), j = ix2 r q := ⟨j 0, j 1, eq_ix2 j⟩
  show k1_pay1 (iblk1 V c 0 t) (iblk1 V c 1 t) (iblk1 V c 2 t) (ix2 r q)
      = msg (V c main_arg1) (V c main_v14) (V c main_v21) (((cfg1.win 3).blk t).view.emb (ix2 r q))
  refine (pay_apply (iblk1 V c 0 t) (iblk1 V c 1 t) (iblk1 V c 2 t) r q).trans ?_
  have h0 : iblk1 V c 0 t (ix2 r (0 : Fin 1)) = V c main_arg1 (col (((cfg1.win 3).blk t).view.emb (ix2 r q))) := by
    show V c main_arg1 (((cfg1.win 0).blk t).view.emb (ix2 r (0 : Fin 1))) = V c main_arg1 _
    refine congrArg _ (funext fun a => Fin.ext ?_)
    match a with
    | ⟨0, _⟩ => show win1_0.index t (0 : Fin 2) * 16000 + 1 * r.val = win1_3.index t (0 : Fin 2) * 16000 + 1 * r.val; omega
    | ⟨1, _⟩ => show win1_0.index t (1 : Fin 2) * 1 + 1 * 0 = 0; omega
  have h1 : iblk1 V c 1 t (ix2 r (0 : Fin 1)) = V c main_v14 (col (((cfg1.win 3).blk t).view.emb (ix2 r q))) := by
    show V c main_v14 (((cfg1.win 1).blk t).view.emb (ix2 r (0 : Fin 1))) = V c main_v14 _
    refine congrArg _ (funext fun a => Fin.ext ?_)
    match a with
    | ⟨0, _⟩ => show win1_1.index t (0 : Fin 2) * 16000 + 1 * r.val = win1_3.index t (0 : Fin 2) * 16000 + 1 * r.val; omega
    | ⟨1, _⟩ => show win1_1.index t (1 : Fin 2) * 1 + 1 * 0 = 0; omega
  have h2 : iblk1 V c 2 t (ix2 r q) = V c main_v21 (((cfg1.win 3).blk t).view.emb (ix2 r q)) := by
    show V c main_v21 (((cfg1.win 2).blk t).view.emb (ix2 r q)) = V c main_v21 _
    refine congrArg _ (funext fun a => Fin.ext ?_)
    match a with
    | ⟨0, _⟩ => show win1_2.index t (0 : Fin 2) * 16000 + 1 * r.val = win1_3.index t (0 : Fin 2) * 16000 + 1 * r.val; omega
    | ⟨1, _⟩ => show win1_2.index t (1 : Fin 2) * 128 + 1 * q.val = win1_3.index t (1 : Fin 2) * 128 + 1 * q.val; omega
  rw [h0, h1, h2]
  rfl

/-- An index of the result array lies in point `t`'s block iff each coordinate lies in the block's range. -/
theorem mem_blk (t : Fin cfg1.N) (i : S800000x128.Idx) :
    i ∈ ((cfg1.win 3).blk t).view.set ↔ ∀ a : Fin 2, win1_3.index t a * S16000x128.size a ≤ (i a).val ∧ (i a).val < win1_3.index t a * S16000x128.size a + S16000x128.size a := by
  show i ∈ ((View.whole main_v22).slice (win1_3.rect t)).set ↔ _
  rw [View.set_slice_whole, Rect.mem_set_unit]
  exact Iff.rfl

/-- The result array after the call is `msg` of the arrays as the call finds them: edge `e` lies in block `e / 16000`. -/
theorem final (c : Dev nD) : (dat1 V c).arrAt 3 cfg1.N = msg (V c main_arg1) (V c main_v14) (V c main_v21) :=
  (dat1 V c).arrAt_eq_of_cover 3 _ (fun t _ => flushed_eq V c t) fun i => by
    have hi0 : (i 0).val < 800000 := idx2_lt0 i
    have hi1 : (i 1).val < 128 := idx2_lt1 i
    have hN : cfg1.N = 50 := N_1
    refine ⟨⟨(i 0).val / 16000, by rw [hN]; omega⟩, flush1_3 _, ?_⟩
    rw [mem_blk]
    obtain ⟨-, -, -, -, -, -, e6, e7⟩ := idx_facts ⟨(i 0).val / 16000, by rw [hN]; omega⟩
    intro a
    match a with
    | ⟨0, _⟩ =>
      show win1_3.index _ (0 : Fin 2) * 16000 ≤ (i 0).val ∧ (i 0).val < win1_3.index _ (0 : Fin 2) * 16000 + 16000
      rw [e6]; show (i 0).val / 16000 * 16000 ≤ (i 0).val ∧ (i 0).val < (i 0).val / 16000 * 16000 + 16000; omega
    | ⟨1, _⟩ =>
      show win1_3.index _ (1 : Fin 2) * 128 ≤ (i 1).val ∧ (i 1).val < win1_3.index _ (1 : Fin 2) * 128 + 128
      rw [e7]; omega

end Cert.KernelIdeal.Edge

end
-- ==== Proof.CombineValue.lean ====
/-
  The combine step (the third pallas_call) as one function of the arrays it is entered with.

  The call tiles the 50000 nodes into 10 blocks of 5000 rows.  At node `n` and feature `j` the body computes
  `y (n, j) + a (n, j) / max (d n) 1`: `y` the node's own projection, `a` the aggregated messages, `d` the in-degree
  (a column).  Block `t` of every window is rows `5000 t … 5000 t + 4999`, so what point `t` writes back is block `t`
  of that one function of the whole arrays, and the 10 blocks cover the result array.
-/
import proofs.«178829_j49632642073094_1_alg».proof.Proof.Gen.KernelIdeal.Frame
import proofs.«178829_j49632642073094_1_alg».proof.Proof.LibRowOps
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Combine

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- Row `n` of a column array. -/
abbrev col (i : S50000x128.Idx) : S50000x1.Idx := ix2 (⟨(i 0).val, idx2_lt0 i⟩ : Fin 50000) (0 : Fin 1)

/-- The node's result at feature `j`: its own projection plus the mean of the messages it received. -/
def comb (y a : S50000x128.Idx → EReal) (d : S50000x1.Idx → EReal) : S50000x128.Idx → EReal :=
  fun i => FloatOps.addf (F := Ideal) (φ := .f32) (y i)
    (FloatOps.divf (F := Ideal) (φ := .f32) (a i)
      (FloatOps.maximumf (F := Ideal) (φ := .f32) (d (col i)) (Ideal.ofBits .f32 0x3F800000#32)))

/-- The body's stored value at row `r`, column `q` of its block. -/
theorem pay_apply (x0 : Vec Ideal S5000x1 .f32) (x4 x6 : Vec Ideal S5000x128 .f32) (r : Fin 5000) (q : Fin 128) :
    k2_pay1 x0 x4 x6 (ix2 r q) = FloatOps.addf (F := Ideal) (φ := .f32) (x4 (ix2 r q))
      (FloatOps.divf (F := Ideal) (φ := .f32) (x6 (ix2 r q))
        (FloatOps.maximumf (F := Ideal) (φ := .f32) (x0 (ix2 r (0 : Fin 1))) (Ideal.ofBits .f32 0x3F800000#32))) := by
  unfold k2_pay1
  rw [shapeCast_self, shapeCast_self, shapeCast_self]
  show FloatOps.addf (F := Ideal) (φ := .f32) (x4 (ix2 r q)) (FloatOps.divf (F := Ideal) (φ := .f32) (x6 (ix2 r q))
    (broadcastTo S5000x128 _ broadcasts_S5000x1_S5000x128 (ix2 r q))) = _
  rw [RowOps.broadcastTo_a1_ab_apply]
  rfl

/-- Every window's block at point `t` starts at row `5000 t`, column 0. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- What point `t` writes back is block `t` of `comb` of the arrays as the call finds them. -/
theorem flushed_eq (c : Dev nD) (t : Fin cfg2.N) :
    (dat2 V c).flushed 3 t = ((cfg2.win 3).blk t).view.read (Elt Ideal) (comb (V c main_v2_1) (V c main_v25) (V c main_v30)) := by
  show (cfg2.win 3).cut (grid2.coords t) ((dat2 V c).after 3 t) = _
  rw [after2_3]
  unfold out2_3
  rw [View.canon_unit_zero hz]
  simp only [View.ld_unit_zero (S := S5000x1) hz, View.ld_unit_zero (S := S5000x128) hz]
  obtain ⟨e0, e1, e2, e3, e4, e5, e6, e7⟩ := idx_facts t
  funext j
  obtain ⟨r, q, rfl⟩ : ∃ (r : Fin 5000) (q : Fin 128), j = ix2 r q := ⟨j 0, j 1, eq_ix2 j⟩
  show k2_pay1 (iblk2 V c 2 t) (iblk2 V c 0 t) (iblk2 V c 1 t) (ix2 r q)
      = comb (V c main_v2_1) (V c main_v25) (V c main_v30) (((cfg2.win 3).blk t).view.emb (ix2 r q))
  refine (pay_apply (iblk2 V c 2 t) (iblk2 V c 0 t) (iblk2 V c 1 t) r q).trans ?_
  have h0 : iblk2 V c 0 t (ix2 r q) = V c main_v2_1 (((cfg2.win 3).blk t).view.emb (ix2 r q)) := by
    show V c main_v2_1 (((cfg2.win 0).blk t).view.emb (ix2 r q)) = V c main_v2_1 _
    refine congrArg _ (funext fun a => Fin.ext ?_)
    match a with
    | ⟨0, _⟩ => show win2_0.index t (0 : Fin 2) * 5000 + 1 * r.val = win2_3.index t (0 : Fin 2) * 5000 + 1 * r.val; omega
    | ⟨1, _⟩ => show win2_0.index t (1 : Fin 2) * 128 + 1 * q.val = win2_3.index t (1 : Fin 2) * 128 + 1 * q.val; omega
  have h1 : iblk2 V c 1 t (ix2 r q) = V c main_v25 (((cfg2.win 3).blk t).view.emb (ix2 r q)) := by
    show V c main_v25 (((cfg2.win 1).blk t).view.emb (ix2 r q)) = V c main_v25 _
    refine congrArg _ (funext fun a => Fin.ext ?_)
    match a with
    | ⟨0, _⟩ => show win2_1.index t (0 : Fin 2) * 5000 + 1 * r.val = win2_3.index t (0 : Fin 2) * 5000 + 1 * r.val; omega
    | ⟨1, _⟩ => show win2_1.index t (1 : Fin 2) * 128 + 1 * q.val = win2_3.index t (1 : Fin 2) * 128 + 1 * q.val; omega
  have h2 : iblk2 V c 2 t (ix2 r (0 : Fin 1)) = V c main_v30 (col (((cfg2.win 3).blk t).view.emb (ix2 r q))) := by
    show V c main_v30 (((cfg2.win 2).blk t).view.emb (ix2 r (0 : Fin 1))) = V c main_v30 _
    refine congrArg _ (funext fun a => Fin.ext ?_)
    match a with
    | ⟨0, _⟩ => show win2_2.index t (0 : Fin 2) * 5000 + 1 * r.val = win2_3.index t (0 : Fin 2) * 5000 + 1 * r.val; omega
    | ⟨1, _⟩ => show win2_2.index t (1 : Fin 2) * 1 + 1 * 0 = 0; omega
  rw [h0, h1, h2]
  rfl

/-- An index of the result array lies in point `t`'s block iff each coordinate lies in the block's range. -/
theorem mem_blk (t : Fin cfg2.N) (i : S50000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v31).slice (win2_3.rect t)).set ↔ _
  rw [View.set_slice_whole, Rect.mem_set_unit]
  exact Iff.rfl

/-- The result array after the call is `comb` of the arrays as the call finds them: node `n` lies in block `n / 5000`. -/
theorem final (c : Dev nD) : (dat2 V c).arrAt 3 cfg2.N = comb (V c main_v2_1) (V c main_v25) (V c main_v30) :=
  (dat2 V c).arrAt_eq_of_cover 3 _ (fun t _ => flushed_eq V c t) fun i => by
    have hi0 : (i 0).val < 50000 := idx2_lt0 i
    have hi1 : (i 1).val < 128 := idx2_lt1 i
    have hN : cfg2.N = 10 := N_2
    refine ⟨⟨(i 0).val / 5000, by rw [hN]; omega⟩, flush2_3 _, ?_⟩
    rw [mem_blk]
    obtain ⟨-, -, -, -, -, -, e6, e7⟩ := idx_facts ⟨(i 0).val / 5000, by rw [hN]; omega⟩
    intro a
    match a with
    | ⟨0, _⟩ =>
      show win2_3.index _ (0 : Fin 2) * 5000 ≤ (i 0).val ∧ (i 0).val < win2_3.index _ (0 : Fin 2) * 5000 + 5000
      rw [e6]; show (i 0).val / 5000 * 5000 ≤ (i 0).val ∧ (i 0).val < (i 0).val / 5000 * 5000 + 5000; omega
    | ⟨1, _⟩ =>
      show win2_3.index _ (1 : Fin 2) * 128 ≤ (i 1).val ∧ (i 1).val < win2_3.index _ (1 : Fin 2) * 128 + 128
      rw [e7]; omega

end Cert.KernelIdeal.Combine

end
-- ==== Proof.KernelValue.lean ====
/-
  The kernel's result array as one function of its eight argument arrays.

  The program is three pallas_calls among stretches of host operations.  Reading its result buffer back through the
  boundaries: the combine step's output is `comb y agg deg`; `y` is the first call's second output, untouched since;
  `agg` and `deg` are scatter-additions the last host stretch makes from the edge transform's output `msg w wd hs` and
  from a column of ones; `wd` and `hs` are gathers the middle host stretch makes from a scatter-addition of the weights
  and from the first call's first output; and each argument array is what the launch memory held, no operation writing one.
-/
import proofs.«178829_j49632642073094_1_alg».proof.Proof.Gen.KernelIdeal.Frame
import proofs.«178829_j49632642073094_1_alg».proof.Proof.LibRowOps
import proofs.«178829_j49632642073094_1_alg».proof.Proof.KernelRun
import proofs.«178829_j49632642073094_1_alg».proof.Proof.ProjValue
import proofs.«178829_j49632642073094_1_alg».proof.Proof.EdgeValue
import proofs.«178829_j49632642073094_1_alg».proof.Proof.CombineValue
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen

open Idealize.ShloMosaic.StableHlo

/-! ## The intermediate arrays, as functions of the arguments -/

/-- A bias vector laid out as one row. -/
def biasRow (b : FVec Ideal S128 .f32) : FVec Ideal S1x128 .f32 := shapeCast S1x128 b shapeCasts_S128_S1x128

/-- The edge weights as a vector. -/
def wVec (efeat : FVec Ideal S800000x1 .f32) : FVec Ideal S800000 .f32 := shapeCast S800000 efeat shapeCasts_S800000x1_S800000

/-- Node indices as gather positions: a negative index counted from the end, laid out as a column. -/
def gatherIdx (a : IVec S800000 32) : IVec S800000x1 32 :=
  broadcastInDim S800000x1 ![0] bcast_S800000_S800000x1_0
    (select (cmpi .slt a (broadcastInDim S800000 ![] bcast_S_S800000 (constantI S_ 32 0#32)))
      (addi a (broadcastInDim S800000 ![] bcast_S_S800000 (constantI S_ 32 50000#32))) a)

/-- Per destination node, the sum of the weights of its incoming edges. -/
def wsum (efeat : FVec Ideal S800000x1 .f32) (dst : IVec S800000 32) : FVec Ideal S50000 .f32 :=
  Host.scatterAdd scatter_S50000_S800000x1_S800000_n_0_0_1
    (broadcastInDim S50000 ![] bcast_S_S50000 (constant (F := Ideal) S_ .f32 0x00000000#32))
    (broadcastInDim S800000x1 ![0] bcast_S800000_S800000x1_0 dst) (wVec efeat)

/-- Per edge, its destination's weight sum, as a column. -/
def wd (efeat : FVec Ideal S800000x1 .f32) (dst : IVec S800000 32) : FVec Ideal S800000x1 .f32 :=
  broadcastInDim S800000x1 ![0] bcast_S800000_S800000x1_0
    (Host.gather gather_S50000_S800000x1_S800000_n_0_n_n_0_1_1 (wsum efeat dst) (gatherIdx dst))

/-- Per edge, its source node's row of `h`. -/
def hsOf (h : FVec Ideal S50000x128 .f32) (src : IVec S800000 32) : FVec Ideal S800000x128 .f32 :=
  Host.gather gather_S50000x128_S800000x1_S800000x128_1_0_n_n_0_1_1128 h (gatherIdx src)

/-- Per destination node, the sum of its incoming edges' messages. -/
def aggOf (res : FVec Ideal S800000x128 .f32) (dst : IVec S800000 32) : FVec Ideal S50000x128 .f32 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 dst) res

/-- Per destination node, the number of its incoming edges, as a column. -/
def degOf (dst : IVec S800000 32) : FVec Ideal S50000x1 .f32 :=
  broadcastInDim S50000x1 ![0] bcast_S50000_S50000x1_0
    (Host.scatterAdd scatter_S50000_S800000x1_S800000_n_0_0_1
      (broadcastInDim S50000 ![] bcast_S_S50000 (constant (F := Ideal) S_ .f32 0x00000000#32))
      (broadcastInDim S800000x1 ![0] bcast_S800000_S800000x1_0 dst)
      (broadcastInDim S800000 ![] bcast_S_S800000 (constant (F := Ideal) S_ .f32 0x3F800000#32)))

/-- The kernel's result from its arguments. -/
def out (feat : FVec Ideal S50000x128 .f32) (efeat : FVec Ideal S800000x1 .f32) (src dst : IVec S800000 32)
    (Wp : FVec Ideal S128x128 .f32) (bp : FVec Ideal S128 .f32) (Ws : FVec Ideal S128x128 .f32) (bs : FVec Ideal S128 .f32) :
    FVec Ideal S50000x128 .f32 :=
  Combine.comb (Proj.proj feat Ws (biasRow bs))
    (aggOf (Edge.msg efeat (wd efeat dst) (hsOf (Proj.proj feat Wp (biasRow bp)) src)) dst)
    (degOf dst)

/-! ## The boundaries, read back -/

variable (m : (ℓ : Loc nD τ sig) → Buf (Elt Ideal) ℓ) (ρ : Dev nD → PrngReg) (c : Dev nD)

/-! ### At the first call's entry -/

theorem V1_arg0 : V1 m ρ c main_arg0 = m ((c : Thread nD τ).loc main_arg0) := by
  show StableHlo.after hostOps0 (W0 m ρ c) (Proc.devRef .tc main_arg0) = _
  after_results
theorem V1_arg1 : V1 m ρ c main_arg1 = m ((c : Thread nD τ).loc main_arg1) := by
  show StableHlo.after hostOps0 (W0 m ρ c) (Proc.devRef .tc main_arg1) = _
  after_results
theorem V1_arg2 : V1 m ρ c main_arg2 = m ((c : Thread nD τ).loc main_arg2) := by
  show StableHlo.after hostOps0 (W0 m ρ c) (Proc.devRef .tc main_arg2) = _
  after_results
theorem V1_arg3 : V1 m ρ c main_arg3 = m ((c : Thread nD τ).loc main_arg3) := by
  show StableHlo.after hostOps0 (W0 m ρ c) (Proc.devRef .tc main_arg3) = _
  after_results
theorem V1_arg4 : V1 m ρ c main_arg4 = m ((c : Thread nD τ).loc main_arg4) := by
  show StableHlo.after hostOps0 (W0 m ρ c) (Proc.devRef .tc main_arg4) = _
  after_results
theorem V1_arg6 : V1 m ρ c main_arg6 = m ((c : Thread nD τ).loc main_arg6) := by
  show StableHlo.after hostOps0 (W0 m ρ c) (Proc.devRef .tc main_arg6) = _
  after_results
theorem V1_v0 : V1 m ρ c main_v0 = biasRow (m ((c : Thread nD τ).loc main_arg5)) := by
  show StableHlo.after hostOps0 (W0 m ρ c) (Proc.devRef .tc main_v0) = _
  after_results; rfl
theorem V1_v1 : V1 m ρ c main_v1 = biasRow (m ((c : Thread nD τ).loc main_arg7)) := by
  show StableHlo.after hostOps0 (W0 m ρ c) (Proc.devRef .tc main_v1) = _
  after_results; rfl

/-! ### At the first call's exit -/

theorem W2_arg1 : W2 m ρ c (Proc.devRef .tc main_arg1) = m ((c : Thread nD τ).loc main_arg1) :=
  (W2_of_ne m ρ c main_arg1 (by decide)).trans (V1_arg1 m ρ c)
theorem W2_arg2 : W2 m ρ c (Proc.devRef .tc main_arg2) = m ((c : Thread nD τ).loc main_arg2) :=
  (W2_of_ne m ρ c main_arg2 (by decide)).trans (V1_arg2 m ρ c)
theorem W2_arg3 : W2 m ρ c (Proc.devRef .tc main_arg3) = m ((c : Thread nD τ).loc main_arg3) :=
  (W2_of_ne m ρ c main_arg3 (by decide)).trans (V1_arg3 m ρ c)
/-- The first output: the pooled projection. -/
theorem W2_h : W2 m ρ c (Proc.devRef .tc main_v2_0)
    = Proj.proj (m ((c : Thread nD τ).loc main_arg0)) (m ((c : Thread nD τ).loc main_arg4)) (biasRow (m ((c : Thread nD τ).loc main_arg5))) :=
  (W2_arr m ρ c 5).trans ((Proj.final5 (V1 m ρ) c).trans (by rw [V1_arg0, V1_arg4, V1_v0]))
/-- The second output: the node's own projection. -/
theorem W2_y : W2 m ρ c (Proc.devRef .tc main_v2_1)
    = Proj.proj (m ((c : Thread nD τ).loc main_arg0)) (m ((c : Thread nD τ).loc main_arg6)) (biasRow (m ((c : Thread nD τ).loc main_arg7))) :=
  (W2_arr m ρ c 6).trans ((Proj.final6 (V1 m ρ) c).trans (by rw [V1_arg0, V1_arg6, V1_v1]))

/-! ### At the second call's entry -/

theorem V3_arg1 : V3 m ρ c main_arg1 = m ((c : Thread nD τ).loc main_arg1) := by
  show StableHlo.after hostOps1 (W2 m ρ c) (Proc.devRef .tc main_arg1) = _
  after_results_simp; exact W2_arg1 m ρ c
theorem V3_arg3 : V3 m ρ c main_arg3 = m ((c : Thread nD τ).loc main_arg3) := by
  show StableHlo.after hostOps1 (W2 m ρ c) (Proc.devRef .tc main_arg3) = _
  after_results_simp; exact W2_arg3 m ρ c
theorem V3_y : V3 m ρ c main_v2_1
    = Proj.proj (m ((c : Thread nD τ).loc main_arg0)) (m ((c : Thread nD τ).loc main_arg6)) (biasRow (m ((c : Thread nD τ).loc main_arg7))) := by
  show StableHlo.after hostOps1 (W2 m ρ c) (Proc.devRef .tc main_v2_1) = _
  after_results_simp; exact W2_y m ρ c
theorem V3_v14 : V3 m ρ c main_v14 = wd (m ((c : Thread nD τ).loc main_arg1)) (m ((c : Thread nD τ).loc main_arg3)) := by
  show StableHlo.after hostOps1 (W2 m ρ c) (Proc.devRef .tc main_v14) = _
  after_results_simp
  rw [W2_arg1, W2_arg3]
  rfl
theorem V3_v21 : V3 m ρ c main_v21
    = hsOf (Proj.proj (m ((c : Thread nD τ).loc main_arg0)) (m ((c : Thread nD τ).loc main_arg4)) (biasRow (m ((c : Thread nD τ).loc main_arg5))))
        (m ((c : Thread nD τ).loc main_arg2)) := by
  show StableHlo.after hostOps1 (W2 m ρ c) (Proc.devRef .tc main_v21) = _
  after_results_simp
  rw [W2_h, W2_arg2]
  rfl

/-! ### At the second call's exit -/

theorem W4_arg3 : W4 m ρ c (Proc.devRef .tc main_arg3) = m ((c : Thread nD τ).loc main_arg3) :=
  (W4_of_ne m ρ c main_arg3 (by decide)).trans (V3_arg3 m ρ c)
theorem W4_y : W4 m ρ c (Proc.devRef .tc main_v2_1)
    = Proj.proj (m ((c : Thread nD τ).loc main_arg0)) (m ((c : Thread nD τ).loc main_arg6)) (biasRow (m ((c : Thread nD τ).loc main_arg7))) :=
  (W4_of_ne m ρ c main_v2_1 (by decide)).trans (V3_y m ρ c)
/-- The edge transform's output: the messages. -/
theorem W4_res : W4 m ρ c (Proc.devRef .tc main_v22)
    = Edge.msg (m ((c : Thread nD τ).loc main_arg1)) (wd (m ((c : Thread nD τ).loc main_arg1)) (m ((c : Thread nD τ).loc main_arg3)))
        (hsOf (Proj.proj (m ((c : Thread nD τ).loc main_arg0)) (m ((c : Thread nD τ).loc main_arg4)) (biasRow (m ((c : Thread nD τ).loc main_arg5))))
          (m ((c : Thread nD τ).loc main_arg2))) :=
  (W4_arr m ρ c 3).trans ((Edge.final (V3 m ρ) c).trans (by rw [V3_arg1, V3_v14, V3_v21]))

/-! ### At the third call's entry -/

theorem V5_y : V5 m ρ c main_v2_1
    = Proj.proj (m ((c : Thread nD τ).loc main_arg0)) (m ((c : Thread nD τ).loc main_arg6)) (biasRow (m ((c : Thread nD τ).loc main_arg7))) := by
  show StableHlo.after hostOps2 (W4 m ρ c) (Proc.devRef .tc main_v2_1) = _
  after_results_simp; exact W4_y m ρ c
theorem V5_v25 : V5 m ρ c main_v25
    = aggOf (Edge.msg (m ((c : Thread nD τ).loc main_arg1)) (wd (m ((c : Thread nD τ).loc main_arg1)) (m ((c : Thread nD τ).loc main_arg3)))
        (hsOf (Proj.proj (m ((c : Thread nD τ).loc main_arg0)) (m ((c : Thread nD τ).loc main_arg4)) (biasRow (m ((c : Thread nD τ).loc main_arg5))))
          (m ((c : Thread nD τ).loc main_arg2)))) (m ((c : Thread nD τ).loc main_arg3)) := by
  show StableHlo.after hostOps2 (W4 m ρ c) (Proc.devRef .tc main_v25) = _
  after_results_simp
  rw [W4_res, W4_arg3]
  rfl
theorem V5_v30 : V5 m ρ c main_v30 = degOf (m ((c : Thread nD τ).loc main_arg3)) := by
  show StableHlo.after hostOps2 (W4 m ρ c) (Proc.devRef .tc main_v30) = _
  after_results_simp
  rw [W4_arg3]
  rfl

/-! ### The result -/

/-- The result buffer at the last boundary is `out` of the launch memory's argument arrays. -/
theorem result_eq : W6 m ρ c (Proc.devRef .tc main_v31)
    = out (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) :=
  (W6_arr m ρ c 3).trans ((Combine.final (V5 m ρ) c).trans (by rw [V5_y, V5_v25, V5_v30]; rfl))

/-- The run of @main, its result array named as `out` of the argument arrays. -/
theorem run : θ_run defs (onTc (τ := τ) (main (F := Ideal))) ⟨m, fun _ => 0, ρ⟩ (fun r => ∀ c : Dev nD,
      r.2.mem ((c.tc : Thread nD τ).loc main_v31)
        = out (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c), (h c).2⟩) (Named.run_named m ρ)

end Cert.KernelIdeal.Whole

end
-- ==== Proof.LibColumns.lean ====
/-
  Columns: a vector laid out as a one-column matrix, a column broadcast across the columns, a one-column matrix
  read back as a vector, and a scalar broadcast to any shape, each read at an index.  Generic in the extents.
-/
import Idealize.ShloMosaic.Lib.ValueIdx
import Idealize.ShloMosaic.Lib.ValueLayout
import Idealize.ShloMosaic.Lib.Pipeline.Value

noncomputable section

namespace ColOps

open Idealize.ShloMosaic Idealize.ShloMosaic.ValueIdx

variable {α : Type}

/-- A vector broadcast to a one-column matrix along axis 0: row `e` holds the vector's entry `e`. -/
theorem bcast_vec_col {A : ℕ} (v : (⟨1, ![A]⟩ : Shape).Idx → α)
    (h : (⟨1, ![A]⟩ : Shape).BroadcastsInDim ⟨2, ![A, 1]⟩ ![0]) (e : Fin A) (z : Fin 1) :
    broadcastInDim ⟨2, ![A, 1]⟩ ![0] h v (ix2 e z) = v (ix1 e) :=
  broadcastInDim_apply ![0] h v (ix2 e z) (ix1 e) (fun a => by
    match a with
    | ⟨0, _⟩ =>
      show e.val = if A = 1 then 0 else e.val
      split
      · have := e.isLt; omega
      · rfl)

/-- A one-column matrix broadcast across `B` columns along both axes: `(e, j)` holds the column's entry `e`. -/
theorem bcast_col_mat {A B : ℕ} (v : (⟨2, ![A, 1]⟩ : Shape).Idx → α)
    (h : (⟨2, ![A, 1]⟩ : Shape).BroadcastsInDim ⟨2, ![A, B]⟩ ![0, 1]) (e : Fin A) (j : Fin B) :
    broadcastInDim ⟨2, ![A, B]⟩ ![0, 1] h v (ix2 e j) = v (ix2 e (0 : Fin 1)) :=
  broadcastInDim_apply ![0, 1] h v (ix2 e j) (ix2 e (0 : Fin 1)) (fun a => by
    match a with
    | ⟨0, _⟩ =>
      show e.val = if A = 1 then 0 else e.val
      split
      · have := e.isLt; omega
      · rfl
    | ⟨1, _⟩ => show 0 = if (1 : ℕ) = 1 then 0 else j.val; rw [if_pos rfl])

/-- A one-column matrix cast to a vector: entry `e` is the column's row `e`. -/
theorem cast_col_vec {A : ℕ} (v : (⟨2, ![A, 1]⟩ : Shape).Idx → α)
    (h : (⟨2, ![A, 1]⟩ : Shape).ShapeCasts ⟨1, ![A]⟩) (e : Fin A) :
    shapeCast ⟨1, ![A]⟩ v h (ix1 e) = v (ix2 e (0 : Fin 1)) :=
  shapeCast_apply v h _ _ (by
    rw [Shape.rowMajor_val_two, Shape.rowMajor_val_one]
    show e.val * 1 + 0 = e.val
    omega)

/-- A scalar broadcast to any shape holds the scalar everywhere. -/
theorem bcast_scalar {s : Shape} (x : (⟨0, ![]⟩ : Shape).Idx → α) (d0 : Fin 0 → Fin s.rank)
    (h : (⟨0, ![]⟩ : Shape).BroadcastsInDim s d0) (i : s.Idx) : broadcastInDim s d0 h x i = x ix0 :=
  broadcastInDim_apply d0 h x i ix0 (fun a => a.elim0)

end ColOps

end
-- ==== Proof.Bridge.lean ====
/-
  The kernel's function of its arguments is the reference's.

  The reference computes, with host operations only: the two dense layers `x · Wᵀ + b`; per edge `exp (−(w / s))` with
  `s` the destination's weight sum; the message `exp (−(w / s)) · h[src]`; the messages summed per destination, divided by
  `max deg 1`; plus the node's own projection.  The kernel computes the dense layers, the messages and the final
  combination inside pallas_calls, and the very same scatter-additions and gathers between them.  The two agree entry by
  entry: a matrix product into a zero accumulator is the plain sum; narrowing to bf16 is the identity on the ideal values;
  `0 − t = −t`; the kernel's division and exponential are the host's; and a column array read at row `e` is the vector
  it was broadcast from read at `e`.  Finiteness of the inputs is not used.
-/
import proofs.«178829_j49632642073094_1_alg».proof.Proof.KernelValue
import proofs.«178829_j49632642073094_1_alg».proof.Proof.LibColumns
import proofs.«178829_j49632642073094_1_alg».proof.Proof.Gen.ReferenceIdeal.Run

set_option maxRecDepth 16384

noncomputable section

open Idealize.ShloMosaic Idealize.ShloMosaic.TcCoe Idealize.SL.Sem Idealize.ShloMosaic.ValueIdx

namespace Cert.Bridge

open Cert.ReferenceIdeal.Facts₀
open Cert.KernelIdeal (Whole.out Whole.biasRow Whole.wVec Whole.gatherIdx Whole.wsum Whole.wd Whole.hsOf Whole.aggOf Whole.degOf)

/-! ## The reference's term, piece by piece -/

/-- The reference's dense layer: `x · Wᵀ` by a transpose and a `dot_general`, plus the bias broadcast in two steps. -/
def refDense (x : FVec Ideal Cert.ReferenceIdeal.S50000x128 .f32) (W : FVec Ideal Cert.ReferenceIdeal.S128x128 .f32) (b : FVec Ideal Cert.ReferenceIdeal.S128 .f32) :
    FVec Ideal Cert.ReferenceIdeal.S50000x128 .f32 :=
  addf (Host.dotGeneral Cert.ReferenceIdeal.dot_S50000x128_S128x128_S50000x128_1_0_0_1_n_n none x
      (transpose Cert.ReferenceIdeal.S128x128 [1, 0] W transposes_S128x128_S128x128_1_0))
    (broadcastInDim Cert.ReferenceIdeal.S50000x128 ![0, 1] bcast_S1x128_S50000x128_0_1 (broadcastInDim Cert.ReferenceIdeal.S1x128 ![1] bcast_S128_S1x128_1 b))

/-- The reference's gather positions. -/
def refIdx (a : IVec Cert.ReferenceIdeal.S800000 32) : IVec Cert.ReferenceIdeal.S800000x1 32 :=
  broadcastInDim Cert.ReferenceIdeal.S800000x1 ![0] bcast_S800000_S800000x1_0
    (select (cmpi .slt a (broadcastInDim Cert.ReferenceIdeal.S800000 ![] bcast_S_S800000 (constantI Cert.ReferenceIdeal.S_ 32 0#32)))
      (addi a (broadcastInDim Cert.ReferenceIdeal.S800000 ![] bcast_S_S800000 (constantI Cert.ReferenceIdeal.S_ 32 50000#32))) a)

/-- Per edge, its destination's weight sum, as a vector. -/
def refNorm (efeat : FVec Ideal Cert.ReferenceIdeal.S800000x1 .f32) (dst : IVec Cert.ReferenceIdeal.S800000 32) : FVec Ideal Cert.ReferenceIdeal.S800000 .f32 :=
  Host.gather Cert.ReferenceIdeal.gather_S50000_S800000x1_S800000_n_0_n_n_0_1_1
    (Host.scatterAdd Cert.ReferenceIdeal.scatter_S50000_S800000x1_S800000_n_0_0_1
      (broadcastInDim Cert.ReferenceIdeal.S50000 ![] bcast_S_S50000 (constant (F := Ideal) Cert.ReferenceIdeal.S_ .f32 0x00000000#32))
      (broadcastInDim Cert.ReferenceIdeal.S800000x1 ![0] bcast_S800000_S800000x1_0 dst)
      (shapeCast Cert.ReferenceIdeal.S800000 efeat shapeCasts_S800000x1_S800000))
    (refIdx dst)

/-- Per edge, the transformed normalised weight, as a vector. -/
def refGate (efeat : FVec Ideal Cert.ReferenceIdeal.S800000x1 .f32) (dst : IVec Cert.ReferenceIdeal.S800000 32) : FVec Ideal Cert.ReferenceIdeal.S800000 .f32 :=
  Host.exp (Host.negf (Host.divf (shapeCast Cert.ReferenceIdeal.S800000 efeat shapeCasts_S800000x1_S800000) (refNorm efeat dst)))

/-- The reference's messages. -/
def refMsg (efeat : FVec Ideal Cert.ReferenceIdeal.S800000x1 .f32) (dst : IVec Cert.ReferenceIdeal.S800000 32) (hs : FVec Ideal Cert.ReferenceIdeal.S800000x128 .f32) :
    FVec Ideal Cert.ReferenceIdeal.S800000x128 .f32 :=
  mulf (broadcastInDim Cert.ReferenceIdeal.S800000x128 ![0, 1] bcast_S800000x1_S800000x128_0_1
      (broadcastInDim Cert.ReferenceIdeal.S800000x1 ![0] bcast_S800000_S800000x1_0 (refGate efeat dst)))
    hs

/-- The reference's in-degree, as a vector. -/
def refDeg (dst : IVec Cert.ReferenceIdeal.S800000 32) : FVec Ideal Cert.ReferenceIdeal.S50000 .f32 :=
  Host.scatterAdd Cert.ReferenceIdeal.scatter_S50000_S800000x1_S800000_n_0_0_1
    (broadcastInDim Cert.ReferenceIdeal.S50000 ![] bcast_S_S50000 (constant (F := Ideal) Cert.ReferenceIdeal.S_ .f32 0x00000000#32))
    (broadcastInDim Cert.ReferenceIdeal.S800000x1 ![0] bcast_S800000_S800000x1_0 dst)
    (broadcastInDim Cert.ReferenceIdeal.S800000 ![] bcast_S_S800000 (constant (F := Ideal) Cert.ReferenceIdeal.S_ .f32 0x3F800000#32))

/-- The reference's in-degree, floored at one, broadcast across the features. -/
def refDen (dst : IVec Cert.ReferenceIdeal.S800000 32) : FVec Ideal Cert.ReferenceIdeal.S50000x128 .f32 :=
  broadcastInDim Cert.ReferenceIdeal.S50000x128 ![0, 1] bcast_S50000x1_S50000x128_0_1
    (broadcastInDim Cert.ReferenceIdeal.S50000x1 ![0] bcast_S50000_S50000x1_0
      (maximumf (refDeg dst) (broadcastInDim Cert.ReferenceIdeal.S50000 ![] bcast_S_S50000 (constant (F := Ideal) Cert.ReferenceIdeal.S_ .f32 0x3F800000#32))))

/-- The reference's messages summed per destination. -/
def refAgg (res : FVec Ideal Cert.ReferenceIdeal.S800000x128 .f32) (dst : IVec Cert.ReferenceIdeal.S800000 32) : FVec Ideal Cert.ReferenceIdeal.S50000x128 .f32 :=
  Host.scatterAdd Cert.ReferenceIdeal.scatter_S50000x128_S800000x1_S800000x128_1_0_0_1
    (broadcastInDim Cert.ReferenceIdeal.S50000x128 ![] bcast_S_S50000x128 (constant (F := Ideal) Cert.ReferenceIdeal.S_ .f32 0x00000000#32))
    (broadcastInDim Cert.ReferenceIdeal.S800000x1 ![0] bcast_S800000_S800000x1_0 dst) res

/-- The reference's gathered source rows. -/
def refHs (h : FVec Ideal Cert.ReferenceIdeal.S50000x128 .f32) (src : IVec Cert.ReferenceIdeal.S800000 32) : FVec Ideal Cert.ReferenceIdeal.S800000x128 .f32 :=
  Host.gather Cert.ReferenceIdeal.gather_S50000x128_S800000x1_S800000x128_1_0_n_n_0_1_1128 h (refIdx src)

/-- The reference's result from its arguments. -/
def refOut (feat : FVec Ideal Cert.ReferenceIdeal.S50000x128 .f32) (efeat : FVec Ideal Cert.ReferenceIdeal.S800000x1 .f32) (src dst : IVec Cert.ReferenceIdeal.S800000 32)
    (Wp : FVec Ideal Cert.ReferenceIdeal.S128x128 .f32) (bp : FVec Ideal Cert.ReferenceIdeal.S128 .f32) (Ws : FVec Ideal Cert.ReferenceIdeal.S128x128 .f32) (bs : FVec Ideal Cert.ReferenceIdeal.S128 .f32) :
    FVec Ideal Cert.ReferenceIdeal.S50000x128 .f32 :=
  addf (refDense feat Ws bs) (Host.divf (refAgg (refMsg efeat dst (refHs (refDense feat Wp bp) src)) dst) (refDen dst))

/-! ## The host plumbing is the same on both sides -/

/-- The two programs spell the per-edge normaliser alike; the kernel lays it out as a column. -/
theorem wd_eq (efeat : FVec Ideal Cert.ReferenceIdeal.S800000x1 .f32) (dst : IVec Cert.ReferenceIdeal.S800000 32) :
    Whole.wd efeat dst = broadcastInDim Cert.ReferenceIdeal.S800000x1 ![0] bcast_S800000_S800000x1_0 (refNorm efeat dst) := rfl

/-- The gathered source rows. -/
theorem hs_eq (h : FVec Ideal Cert.ReferenceIdeal.S50000x128 .f32) (src : IVec Cert.ReferenceIdeal.S800000 32) : Whole.hsOf h src = refHs h src := rfl

/-- The messages summed per destination. -/
theorem agg_eq (res : FVec Ideal Cert.ReferenceIdeal.S800000x128 .f32) (dst : IVec Cert.ReferenceIdeal.S800000 32) : Whole.aggOf res dst = refAgg res dst := rfl

/-- The in-degree; the kernel lays it out as a column. -/
theorem deg_eq (dst : IVec Cert.ReferenceIdeal.S800000 32) :
    Whole.degOf dst = broadcastInDim Cert.ReferenceIdeal.S50000x1 ![0] bcast_S50000_S50000x1_0 (refDeg dst) := rfl

/-! ## Scalar and pointwise facts, over plain variables -/

/-- The host's `exp (−(a / b))`, entry by entry. -/
theorem host_gate_apply {s : Shape} (a b : FVec Ideal s .f32) (i : s.Idx) :
    Host.exp (Host.negf (Host.divf a b)) i = Ideal.exp (-(Ideal.div (a i) (b i))) := rfl

/-- The host's quotient, entry by entry. -/
theorem host_divf_apply {s : Shape} (a b : FVec Ideal s .f32) (i : s.Idx) : Host.divf a b i = Ideal.div (a i) (b i) := rfl

/-- The kernel's `exp (0 − a / b)` is `exp (−(a / b))`. -/
theorem gate_scalar (a b : Ideal .f32) :
    FloatOps.exp (F := Ideal) (φ := .f32) (FloatOps.subf (F := Ideal) (φ := .f32) (Ideal.ofBits .f32 0x00000000#32)
      (FloatOps.divf (F := Ideal) (φ := .f32) a b)) = Ideal.exp (-(Ideal.div a b)) := by
  show Ideal.exp (Ideal.ofBits .f32 0x00000000#32 - Ideal.div a b) = _
  rw [Ideal.ofBits_zero_f32, zero_sub]

/-- The kernel's message from its scalars. -/
theorem msg_scalar (g h : Ideal .f32) : FloatOps.mulf (F := Ideal) (φ := .f32) g h = g * h := rfl

/-- The kernel's combination from its scalars. -/
theorem comb_scalar (y a d : Ideal .f32) :
    FloatOps.addf (F := Ideal) (φ := .f32) y (FloatOps.divf (F := Ideal) (φ := .f32) a d) = y + Ideal.div a d := rfl

/-- The floor at one, in the two spellings. -/
theorem floor_scalar (d o : Ideal .f32) : max d o = FloatOps.maximumf (F := Ideal) (φ := .f32) d o := rfl

/-! ## The computed pieces agree -/

/-- The kernel's dense layer (row against row of the weights, plus the bias row) is the reference's. -/
theorem dense_eq (x : FVec Ideal Cert.ReferenceIdeal.S50000x128 .f32) (W : FVec Ideal Cert.ReferenceIdeal.S128x128 .f32) (b : FVec Ideal Cert.ReferenceIdeal.S128 .f32) :
    Cert.KernelIdeal.Proj.proj x W (Whole.biasRow b) = refDense x W b := by
  funext i
  obtain ⟨n, j, rfl⟩ : ∃ (n : Fin 50000) (j : Fin 128), i = ix2 n j := ⟨i 0, i 1, eq_ix2 i⟩
  unfold refDense
  rw [RowOps.dense_host_apply' Cert.ReferenceIdeal.dot_S50000x128_S128x128_S50000x128_1_0_0_1_n_n rfl x _ b
    bcast_S128_S1x128_1 bcast_S1x128_S50000x128_0_1 n j]
  unfold Cert.KernelIdeal.Proj.proj RowOps.dense Whole.biasRow
  refine congrArg₂ (· + ·) (Finset.sum_congr rfl fun k _ => congrArg₂ (· * ·) rfl ?_) ?_
  · exact (transpose_apply [1, 0] W transposes_S128x128_S128x128_1_0 (ix2 k j) (ix2 j k) (fun b => by
      match b with
      | ⟨0, _⟩ => rfl
      | ⟨1, _⟩ => rfl)).symm
  · exact shapeCast_a_1a_apply b _ 0 j

/-- The reference's transformed weight of edge `e`. -/
theorem gate_at (efeat : FVec Ideal Cert.ReferenceIdeal.S800000x1 .f32) (dst : IVec Cert.ReferenceIdeal.S800000 32) (e : Fin 800000) :
    refGate efeat dst (ix1 e) = Ideal.exp (-(Ideal.div (efeat (ix2 e (0 : Fin 1))) (refNorm efeat dst (ix1 e)))) := by
  unfold refGate
  rw [host_gate_apply, ColOps.cast_col_vec]

/-- The kernel's message is the reference's. -/
theorem msg_eq (efeat : FVec Ideal Cert.ReferenceIdeal.S800000x1 .f32) (dst : IVec Cert.ReferenceIdeal.S800000 32) (hs : FVec Ideal Cert.ReferenceIdeal.S800000x128 .f32) :
    Cert.KernelIdeal.Edge.msg efeat (Whole.wd efeat dst) hs = refMsg efeat dst hs := by
  funext i
  obtain ⟨e, j, rfl⟩ : ∃ (e : Fin 800000) (j : Fin 128), i = ix2 e j := ⟨i 0, i 1, eq_ix2 i⟩
  have hcol : Cert.KernelIdeal.Edge.col (ix2 e j) = ix2 e (0 : Fin 1) := rfl
  have hwd : Whole.wd efeat dst (ix2 e (0 : Fin 1)) = refNorm efeat dst (ix1 e) := by
    rw [wd_eq]
    exact ColOps.bcast_vec_col (refNorm efeat dst) bcast_S800000_S800000x1_0 e 0
  have hX : broadcastInDim Cert.ReferenceIdeal.S800000x128 ![0, 1] bcast_S800000x1_S800000x128_0_1
        (broadcastInDim Cert.ReferenceIdeal.S800000x1 ![0] bcast_S800000_S800000x1_0 (refGate efeat dst)) (ix2 e j)
      = refGate efeat dst (ix1 e) :=
    (ColOps.bcast_col_mat _ bcast_S800000x1_S800000x128_0_1 e j).trans
      (ColOps.bcast_vec_col (refGate efeat dst) bcast_S800000_S800000x1_0 e 0)
  unfold Cert.KernelIdeal.Edge.msg refMsg
  rw [hcol, hwd, mulf_apply, hX, gate_at, gate_scalar, msg_scalar]

/-- The kernel's floor of the in-degree at a node is the reference's broadcast denominator at any of its features. -/
theorem den_eq (dst : IVec Cert.ReferenceIdeal.S800000 32) (n : Fin 50000) (j : Fin 128) :
    refDen dst (ix2 n j)
      = FloatOps.maximumf (F := Ideal) (φ := .f32) (Whole.degOf dst (ix2 n (0 : Fin 1))) (Ideal.ofBits .f32 0x3F800000#32) := by
  have hd : Whole.degOf dst (ix2 n (0 : Fin 1)) = refDeg dst (ix1 n) := by
    rw [deg_eq]
    exact ColOps.bcast_vec_col (refDeg dst) bcast_S50000_S50000x1_0 n 0
  have ho : broadcastInDim Cert.ReferenceIdeal.S50000 ![] bcast_S_S50000 (constant (F := Ideal) Cert.ReferenceIdeal.S_ .f32 0x3F800000#32) (ix1 n)
      = Ideal.ofBits .f32 0x3F800000#32 :=
    (ColOps.bcast_scalar (constant (F := Ideal) Cert.ReferenceIdeal.S_ .f32 0x3F800000#32) ![] bcast_S_S50000 (ix1 n)).trans
      (constant_apply _ _)
  rw [hd]
  unfold refDen
  refine ((ColOps.bcast_col_mat _ bcast_S50000x1_S50000x128_0_1 n j).trans
    (ColOps.bcast_vec_col _ bcast_S50000_S50000x1_0 n 0)).trans ?_
  rw [maximumf_apply, ho, floor_scalar]

/-- The kernel's result is the reference's. -/
theorem out_eq (feat : FVec Ideal Cert.ReferenceIdeal.S50000x128 .f32) (efeat : FVec Ideal Cert.ReferenceIdeal.S800000x1 .f32) (src dst : IVec Cert.ReferenceIdeal.S800000 32)
    (Wp : FVec Ideal Cert.ReferenceIdeal.S128x128 .f32) (bp : FVec Ideal Cert.ReferenceIdeal.S128 .f32) (Ws : FVec Ideal Cert.ReferenceIdeal.S128x128 .f32) (bs : FVec Ideal Cert.ReferenceIdeal.S128 .f32) :
    Whole.out feat efeat src dst Wp bp Ws bs = refOut feat efeat src dst Wp bp Ws bs := by
  unfold Whole.out
  rw [dense_eq, dense_eq, msg_eq, hs_eq, agg_eq]
  funext i
  obtain ⟨n, j, rfl⟩ : ∃ (n : Fin 50000) (j : Fin 128), i = ix2 n j := ⟨i 0, i 1, eq_ix2 i⟩
  have hcol : Cert.KernelIdeal.Combine.col (ix2 n j) = ix2 n (0 : Fin 1) := rfl
  unfold Cert.KernelIdeal.Combine.comb refOut
  rw [hcol, addf_apply, host_divf_apply, den_eq, comb_scalar]

end Cert.Bridge

end
-- ==== Proof.lean ====
/-
  The certificate of a message-passing layer over a graph of 50000 nodes and 800000 edges.

  Both programs compute, for every node `n` and feature `j`,
    `(x · W_selfᵀ + b_self) (n, j) + (∑ over edges e into n of exp (−(w e / s (dst e))) · h (src e, j)) / max (deg n) 1`
  with `h = x · W_poolᵀ + b_pool`, `s` the per-destination sum of the edge weights and `deg` the in-degree.  The kernel
  runs three pallas_calls — the two projections, the per-edge message, the final combination — among host stretches
  that do the scatter-additions and gathers; the reference does everything on the host.

  The three frames: the kernel's two are the generated frame certificates; the reference's is its generated run with
  the result dropped.  The idealization rewrote nothing, so there is nothing to preserve.  The value claim: the
  kernel's run names its result array as one function `out` of the argument arrays (each call's output array is one
  function of the arrays the call is entered with, block by block; the host stretches are read back operation by
  operation), the reference's generated run names its result as the composed term of its operations, and the two are
  equal entry by entry on the extended reals, with no use of the inputs' finiteness.
-/
import proofs.«178829_j49632642073094_1_alg».proof.Defs
import proofs.«178829_j49632642073094_1_alg».proof.Proof.Gen.Kernel
import proofs.«178829_j49632642073094_1_alg».proof.Proof.Gen.Kernel.Skeleton
import proofs.«178829_j49632642073094_1_alg».proof.Proof.Gen.Kernel.Launch
import proofs.«178829_j49632642073094_1_alg».proof.Proof.Gen.Kernel.Points
import proofs.«178829_j49632642073094_1_alg».proof.Proof.Gen.Kernel.Frame
import proofs.«178829_j49632642073094_1_alg».proof.Proof.Gen.KernelIdeal
import proofs.«178829_j49632642073094_1_alg».proof.Proof.Gen.KernelIdeal.Skeleton
import proofs.«178829_j49632642073094_1_alg».proof.Proof.Gen.KernelIdeal.Launch
import proofs.«178829_j49632642073094_1_alg».proof.Proof.Gen.KernelIdeal.Points
import proofs.«178829_j49632642073094_1_alg».proof.Proof.Gen.KernelIdeal.Frame
import proofs.«178829_j49632642073094_1_alg».proof.Proof.Gen.ReferenceIdeal
import proofs.«178829_j49632642073094_1_alg».proof.Proof.Gen.ReferenceIdeal.Run
import proofs.«178829_j49632642073094_1_alg».proof.Proof.Gen.ReferenceIdeal.Read
import proofs.«178829_j49632642073094_1_alg».proof.Proof.Gen.Pre_finite_inputs
import proofs.«178829_j49632642073094_1_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs to its end with its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs to its end with its arguments unchanged: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the same result array: the kernel's is `out` of
    its arguments, the reference's the composed term of its operations, and the two are one function. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [a0, a1, a2, a3, a4, a5, a6, a7]
  exact (Cert.Bridge.out_eq _ _ _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
